-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S2000000 : Shape := ⟨1, ![2000000]⟩
abbrev S128x64 : Shape := ⟨2, ![128, 64]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg1 : IVec S2000000 32) (main_arg5 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S2000000 32 := broadcastInDim S2000000 ![] bcast_S_S2000000 main_c_8
  let main_v25 : IVec S2000000 1 := cmpi .sge main_arg1 main_v24
  let main_c_9 : IVec S_ 32 := constantI S_ 32 2#32
  let main_v26 : IVec S2000000 32 := broadcastInDim S2000000 ![] bcast_S_S2000000 main_c_9
  let main_v27 : IVec S2000000 1 := cmpi .slt main_arg1 main_v26
  let main_v28 : IVec S2000000 1 := andi main_v25 main_v27
  let main_c_10 : IVec S_ 1 := constantI S_ 1 1#1
  let main_v29 : IVec S_ 1 := (fun x v => Host.reduce IntOp.andi x v reducesTo_S2000000_S_d0 h_S_) main_v28 main_c_10
  let main_v30 : IVec S_ 1 := andi main_v23 main_v29
  main_v30

def fn {F : FTy → Type} [FloatOps F] (main_arg0 : FVec F S2000000x64 .f32) (main_arg1 : IVec S2000000 32) (main_arg2 : FVec F S128x64 .f32) (main_arg3 : FVec F S128 .f32) (main_arg4 : FVec F S1x128 .f32) (main_arg5 : FVec F S1 .f32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg1 main_arg5 main_v13 main_v16
-- ==== Kernel.lean ====
abbrev S2000000x64 : Shape := ⟨2, ![2000000, 64]⟩
abbrev S2000000 : Shape := ⟨1, ![2000000]⟩
abbrev S128x64 : Shape := ⟨2, ![128, 64]⟩
abbrev S128 : Shape := ⟨1, ![128]⟩
abbrev S1x128 : Shape := ⟨2, ![1, 128]⟩
abbrev S1 : Shape := ⟨1, ![1]⟩
abbrev S125x1x16000 : Shape := ⟨3, ![125, 1, 16000]⟩
abbrev S128x1 : Shape := ⟨2, ![128, 1]⟩
abbrev S1x1 : Shape := ⟨2, ![1, 1]⟩
abbrev S125x1x2 : Shape := ⟨3, ![125, 1, 2]⟩
abbrev S16000x64 : Shape := ⟨2, ![16000, 64]⟩
abbrev S1x1x16000 : Shape := ⟨3, ![1, 1, 16000]⟩
abbrev S1x1x2 : Shape := ⟨3, ![1, 1, 2]⟩
abbrev S3200x64 : Shape := ⟨2, ![3200, 64]⟩
abbrev S128x3200 : Shape := ⟨2, ![128, 3200]⟩
abbrev S3200 : Shape := ⟨1, ![3200]⟩
abbrev S1x3200 : Shape := ⟨2, ![1, 3200]⟩
abbrev S1x1x3200 : Shape := ⟨3, ![1, 1, 3200]⟩
abbrev S1x2 : Shape := ⟨2, ![1, 2]⟩
abbrev S125x2 : Shape := ⟨2, ![125, 2]⟩
abbrev S_ : Shape := ⟨0, ![]⟩
abbrev S2 : Shape := ⟨1, ![2]⟩

abbrev nBuf : Space → Nat
  | .hbm => 27
  | .vmem => 12
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S128x64, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S125x1x16000, .i32⟩
  | .hbm, ⟨7, _⟩ => ⟨S128x1, .f32⟩
  | .hbm, ⟨8, _⟩ => ⟨S128x1, .f32⟩
  | .hbm, ⟨9, _⟩ => ⟨S1x1, .f32⟩
  | .hbm, ⟨10, _⟩ => ⟨S125x1x16000, .f32⟩
  | .hbm, ⟨11, _⟩ => ⟨S125x1x2, .f32⟩
  | .hbm, ⟨12, _⟩ => ⟨S125x2, .f32⟩
  | .hbm, ⟨13, _⟩ => ⟨S_, .f32⟩
  | .hbm, ⟨14, _⟩ => ⟨S2, .f32⟩
  | .hbm, ⟨15, _⟩ => ⟨S2000000, .f32⟩
  | .hbm, ⟨16, _⟩ => ⟨S_, .i32⟩
  | .hbm, ⟨17, _⟩ => ⟨S2000000, .i32⟩
  | .hbm, ⟨18, _⟩ => ⟨S2000000, .i1⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S2000000, .f32⟩
  | .hbm, ⟨24, _⟩ => ⟨S2000000, .f32⟩
  | .hbm, ⟨25, _⟩ => ⟨S2000000, .f32⟩
  | .hbm, ⟨26, _⟩ => ⟨S2000000, .f32⟩
  | .local _ .vmem, ⟨0, _⟩ => ⟨S16000x64, .f32⟩
  | .local _ .vmem, ⟨1, _⟩ => ⟨S16000x64, .f32⟩
  | .local _ .vmem, ⟨2, _⟩ => ⟨S128x64, .f32⟩
  | .local _ .vmem, ⟨3, _⟩ => ⟨S128x1, .f32⟩
  | .local _ .vmem, ⟨4, _⟩ => ⟨S128x1, .f32⟩
  | .local _ .vmem, ⟨5, _⟩ => ⟨S1x1, .f32⟩
  | .local _ .vmem, ⟨6, _⟩ => ⟨S1x1x16000, .i32⟩
  | .local _ .vmem, ⟨7, _⟩ => ⟨S1x1x16000, .i32⟩
  | .local _ .vmem, ⟨8, _⟩ => ⟨S1x1x16000, .f32⟩
  | .local _ .vmem, ⟨9, _⟩ => ⟨S1x1x16000, .f32⟩
  | .local _ .vmem, ⟨10, _⟩ => ⟨S1x1x2, .f32⟩
  | .local _ .vmem, ⟨11, _⟩ => ⟨S1x1x2, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![125], ![false]⟩

@[reducible] def k0_t1_loop : Scf.Loop 32 :=
  let c0_i32 : BitVec 32 := 0#32
  let c5_i32 : BitVec 32 := 5#32
  let v10 : BitVec 32 := Scalar.addi c0_i32 c5_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c3200_i32 : BitVec 32 := 3200#32
  let v15 : BitVec 32 := Scalar.muli arg9 c3200_i32
  v15
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c3200_i32 : BitVec 32 := 3200#32
  let v15 : BitVec 32 := Scalar.muli arg9 c3200_i32
  let v16 : BitVec 32 := v15
  let v17 : Index := Scalar.indexCast v16
  let c0_12 : Index := 0#32
  ![v17.toNat, 0]
def k0_off2 (k0_t1 : Fin k0_t1_loop.trips) : Fin 3 → Nat :=
  let c0_15 : Index := 0#32
  let c0_16 : Index := 0#32
  let c0_i32 : BitVec 32 := 0#32
  let c1_i32 : BitVec 32 := 1#32
  let arg9 : BitVec 32 := Scf.iv c0_i32 c1_i32 k0_t1
  let c3200_i32 : BitVec 32 := 3200#32
  let v15 : BitVec 32 := Scalar.muli arg9 c3200_i32
  let v16 : BitVec 32 := v15
  let v32 : Index := Scalar.indexCast v16
  ![0, 0, v32.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x16000 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x16000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2000000_S125x1x16000 : S2000000.ShapeCasts S125x1x16000
  shapeCasts_S128_S128x1 : S128.ShapeCasts S128x1
  shapeCasts_S1x128_S128x1 : S1x128.ShapeCasts S128x1
  shapeCasts_S1_S1x1 : S1.ShapeCasts S1x1
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S3200x64 : 0 < S3200x64.numel
  broadcasts_S128x1_S128x3200 : S128x1.Broadcasts S128x3200
  reduces_S128x3200_S3200 : S128x3200.Reduces [0] S3200
  shapeCasts_S3200_S1x3200 : S3200.ShapeCasts S1x3200
  broadcasts_S1x1_S1x3200 : S1x1.Broadcasts S1x3200
  shapeCasts_S1x3200_S1x1x3200 : S1x3200.ShapeCasts S1x1x3200
  h_S1x1x3200 : 0 < S1x1x3200.numel
  shapeCasts_S1x1x3200_S1x1x3200 : S1x1x3200.ShapeCasts S1x1x3200
  shapeCasts_S1x1x3200_S1x3200 : S1x1x3200.ShapeCasts S1x3200
  natLt_1_32 : 1 < 32
  reduces_S1x3200_S1 : S1x3200.Reduces [1] S1
  concatenates_S1x1_S1x1_S1x2_d1 : Shape.Concatenates [S1x1, S1x1] S1x2 1
  shapeCasts_S1x2_S1x1x2 : S1x2.ShapeCasts S1x1x2
  inb_S1x1x2_S1x1x2_0_0_0 : ∀ a, (![0, 0, 0] : Fin 3 → Nat) a + S1x1x2.size a ≤ S1x1x2.size a
  h_S1x1x2 : 0 < S1x1x2.numel
  shapeCasts_S125x1x2_S125x2 : S125x1x2.ShapeCasts S125x2
  reducesTo_S125x2_S2_d0 : S125x2.ReducesTo [0] S2
  h_S_ : 0 < S_.numel
  shapeCasts_S125x1x16000_S2000000 : S125x1x16000.ShapeCasts S2000000
  bcast_S_S2000000 : S_.BroadcastsInDim S2000000 (![] : Fin 0 → Fin S2000000.rank)
  slices_S2_S1_0 : S2.Slices ![0] S1
  shapeCasts_S1_S_ : S1.ShapeCasts S_
  slices_S2_S1_1 : S2.Slices ![1] S1
  dot_S128x64_S3200x64_S128x3200_1_1_0_0_n_n_wf : DotDims.WF S128x64 S3200x64 S128x3200 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S3200x64.size a ≤ S16000x64.size a
  k0_off2_inb : ∀ k0_t1 : Fin k0_t1_loop.trips, ∀ a, (k0_off2 k0_t1) a + S1x1x3200.size a ≤ S1x1x16000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S2000000x64.size a
  hwx0_0 : ∀ i : grid0.Coords, EltTy.bits .f32 = 32 ∨ (Rect.block (s := S2000000x64) S16000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x16000.size a ≤ S125x1x16000.size a
  hwx0_5 : ∀ i : grid0.Coords, EltTy.bits .i32 = 32 ∨ (Rect.block (s := S125x1x16000) S1x1x16000.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x16000.size a ≤ S125x1x16000.size a
  hwx0_6 : ∀ i : grid0.Coords, EltTy.bits .f32 = 32 ∨ (Rect.block (s := S125x1x16000) S1x1x16000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2.size a ≤ S125x1x2.size a
  hwx0_7 : ∀ i : grid0.Coords, EltTy.bits .f32 = 32 ∨ (Rect.block (s := S125x1x2) S1x1x2.size (cc0_transform_7 i) (hinb0_7 i)).WholeWords (EltTy.packing .f32)

variable [Facts₀]

def dot_S128x64_S3200x64_S128x3200_1_1_0_0_n_n : DotDims S128x64 S3200x64 S128x3200 where
  lhsContracting := [1]
  rhsContracting := [1]
  lhsNonContracting := [0]
  rhsNonContracting := [0]
  lhsBatch := []
  rhsBatch := []
  wf := dot_S128x64_S3200x64_S128x3200_1_1_0_0_n_n_wf

abbrev win0_0 : Pipeline.Window sig grid0 :=
  Pipeline.Window.ofSpec (Memref.whole main_arg0) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x16000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1x1x16000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x1x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2000000x64 : Shape := ⟨2, ![2000000, 64]⟩
abbrev S2000000 : Shape := ⟨1, ![2000000]⟩
abbrev S128x64 : Shape := ⟨2, ![128, 64]⟩
abbrev S128 : Shape := ⟨1, ![128]⟩
abbrev S1x128 : Shape := ⟨2, ![1, 128]⟩
abbrev S1 : Shape := ⟨1, ![1]⟩
abbrev S64x128 : Shape := ⟨2, ![64, 128]⟩
abbrev S2000000x128 : Shape := ⟨2, ![2000000, 128]⟩
abbrev S128x1 : Shape := ⟨2, ![128, 1]⟩
abbrev S2000000x1 : Shape := ⟨2, ![2000000, 1]⟩
abbrev S1x1 : Shape := ⟨2, ![1, 1]⟩
abbrev S_ : Shape := ⟨0, ![]⟩
abbrev S2 : Shape := ⟨1, ![2]⟩

abbrev nBuf : Space → Nat
  | .hbm => 33
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S128x64, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S64x128, .f32⟩
  | .hbm, ⟨7, _⟩ => ⟨S2000000x128, .f32⟩
  | .hbm, ⟨8, _⟩ => ⟨S1x128, .f32⟩
  | .hbm, ⟨9, _⟩ => ⟨S2000000x128, .f32⟩
  | .hbm, ⟨10, _⟩ => ⟨S2000000x128, .f32⟩
  | .hbm, ⟨11, _⟩ => ⟨S2000000x128, .f32⟩
  | .hbm, ⟨12, _⟩ => ⟨S128x1, .f32⟩
  | .hbm, ⟨13, _⟩ => ⟨S2000000x1, .f32⟩
  | .hbm, ⟨14, _⟩ => ⟨S1x1, .f32⟩
  | .hbm, ⟨15, _⟩ => ⟨S2000000x1, .f32⟩
  | .hbm, ⟨16, _⟩ => ⟨S2000000x1, .f32⟩
  | .hbm, ⟨17, _⟩ => ⟨S2000000, .f32⟩
  | .hbm, ⟨18, _⟩ => ⟨S2000000, .f32⟩
  | .hbm, ⟨19, _⟩ => ⟨S_, .f32⟩
  | .hbm, ⟨20, _⟩ => ⟨S2, .f32⟩
  | .hbm, ⟨21, _⟩ => ⟨S2000000x1, .i32⟩
  | .hbm, ⟨22, _⟩ => ⟨S2, .f32⟩
  | .hbm, ⟨23, _⟩ => ⟨S_, .i32⟩
  | .hbm, ⟨24, _⟩ => ⟨S2000000, .i32⟩
  | .hbm, ⟨25, _⟩ => ⟨S2000000, .i1⟩
  | .hbm, ⟨26, _⟩ => ⟨S_, .i32⟩
  | .hbm, ⟨27, _⟩ => ⟨S2000000, .i32⟩
  | .hbm, ⟨28, _⟩ => ⟨S2000000, .i32⟩
  | .hbm, ⟨29, _⟩ => ⟨S2000000, .i32⟩
  | .hbm, ⟨30, _⟩ => ⟨S2000000x1, .i32⟩
  | .hbm, ⟨31, _⟩ => ⟨S2000000, .f32⟩
  | .hbm, ⟨32, _⟩ => ⟨S2000000, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S2000000x128_0_1 : S1x128.BroadcastsInDim S2000000x128 (![0, 1] : Fin 2 → Fin S2000000x128.rank)
  transposes_S1x128_S128x1_1_0 : S1x128.Transposes [1, 0] S128x1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  shapeCasts_S2000000x1_S2000000 : S2000000x1.ShapeCasts S2000000
  bcast_S_S2 : S_.BroadcastsInDim S2 (![] : Fin 0 → Fin S2.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  dot_S2000000x64_S64x128_S2000000x128_1_0_0_1_n_n_wf : DotDims.WF S2000000x64 S64x128 S2000000x128 [1] [0] [0] [1] [] []
  dot_S2000000x128_S128x1_S2000000x1_1_0_0_1_n_n_wf : DotDims.WF S2000000x128 S128x1 S2000000x1 [1] [0] [0] [1] [] []
  scatter_S2_S2000000x1_S2000000_n_0_0_1_wf : ScatterDims.WF S2 S2000000x1 S2000000 [] [0] [0] 1
  gather_S2_S2000000x1_S2000000_n_0_n_n_0_1_1_wf : GatherDims.WF S2 S2000000x1 S2000000 [] [0] [] [0] [] 1 ![1]

variable [Facts₀]

def dot_S2000000x64_S64x128_S2000000x128_1_0_0_1_n_n : DotDims S2000000x64 S64x128 S2000000x128 where
  lhsContracting := [1]
  rhsContracting := [0]
  lhsNonContracting := [0]
  rhsNonContracting := [1]
  lhsBatch := []
  rhsBatch := []
  wf := dot_S2000000x64_S64x128_S2000000x128_1_0_0_1_n_n_wf
def dot_S2000000x128_S128x1_S2000000x1_1_0_0_1_n_n : DotDims S2000000x128 S128x1 S2000000x1 where
  lhsContracting := [1]
  rhsContracting := [0]
  lhsNonContracting := [0]
  rhsNonContracting := [1]
  lhsBatch := []
  rhsBatch := []
  wf := dot_S2000000x128_S128x1_S2000000x1_1_0_0_1_n_n_wf
def scatter_S2_S2000000x1_S2000000_n_0_0_1 : ScatterDims S2 S2000000x1 S2000000 where
  updateWindowDims := []
  insertedWindowDims := [0]
  scatterDimsToOperandDims := [0]
  indexVectorDim := 1
  wf := scatter_S2_S2000000x1_S2000000_n_0_0_1_wf
def gather_S2_S2000000x1_S2000000_n_0_n_n_0_1_1 : GatherDims S2 S2000000x1 S2000000 where
  offsetDims := []
  collapsedSliceDims := [0]
  operandBatchingDims := []
  startIndicesBatchingDims := []
  startIndexMap := [0]
  indexVectorDim := 1
  sliceSizes := ![1]
  wf := gather_S2_S2000000x1_S2000000_n_0_n_n_0_1_1_wf

class Facts : Prop extends Facts₀ where

variable [Facts]
-- ==== Proof.KBody.lean ====
/-
  The kernel body at one grid point, read as values. The body walks its block of 16,000 rows in five trips of a
  counted loop; trip k loads rows [3200k, 3200k + 3200) of the block and the same stretch of the labels, stores
  that chunk's scores at the same stretch of the first output block, and adds the chunk's two sums onto the pair
  of 1×1 values the loop carries. After the loop the pair is stored, side by side, as the second output block.
-/
import proofs.«411640_j35201551958668_3_alg».proof.Proof.Gen.KernelIdeal.Frame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

/-- The loop makes five trips. -/
theorem trips_eq : k0_t1_loop.trips = 5 := by decide

/-- Rows [3200k, 3200k + 3200) of a block of 16,000 rows: what trip `k` loads of the x block. -/
def xChunk (x0 : Vec F S16000x64 .f32) (k : Fin k0_t1_loop.trips) : Vec F S3200x64 .f32 :=
  View.ld x0 (Rect.unit (s := S16000x64) (k0_off1 k) S3200x64.size (k0_off1_inb k))

/-- The same stretch of the block of labels. -/
def tChunk (x5 : Vec F S1x1x16000 .i32) (k : Fin k0_t1_loop.trips) : Vec F S1x1x3200 .i32 :=
  View.ld x5 (Rect.unit (s := S1x1x16000) (k0_off2 k) S1x1x3200.size (k0_off2_inb k))

/-- The pair the loop carries, after `k` trips: from the two zero values, each trip adds its chunk's sums. -/
def carried (x0 : Vec F S16000x64 .f32) (x1 : Vec F S128x64 .f32) (x2 : Vec F S128x1 .f32) (x3 : Vec F S128x1 .f32) (x4 : Vec F S1x1 .f32) (x5 : Vec F S1x1x16000 .i32) : Nat → FVec F S1x1 .f32 × FVec F S1x1 .f32
  | 0 => (k0_pay1, k0_pay2)
  | k + 1 =>
    if h : k < k0_t1_loop.trips then
      (k0_pay6 x1 x2 x3 x4 (carried x0 x1 x2 x3 x4 x5 k).1 (xChunk x0 ⟨k, h⟩) (tChunk x5 ⟨k, h⟩),
       k0_pay7 x1 x2 x3 x4 (carried x0 x1 x2 x3 x4 x5 k).2 (xChunk x0 ⟨k, h⟩) (tChunk x5 ⟨k, h⟩))
    else carried x0 x1 x2 x3 x4 x5 k

/-- What trip `k` stores: its chunk's scores at the chunk's stretch of the output block. -/
def chunkPiece (x0 : Vec F S16000x64 .f32) (x1 : Vec F S128x64 .f32) (x2 : Vec F S128x1 .f32) (x3 : Vec F S128x1 .f32)
    (x4 : Vec F S1x1 .f32) (k : Fin k0_t1_loop.trips) : View.Piece (Elt F) S1x1x16000 .f32 :=
  ⟨Rect.unit (s := S1x1x16000) (k0_off2 k) S1x1x3200.size (k0_off2_inb k), k0_pay4 x1 x2 x3 x4 (xChunk x0 k)⟩

/-- A trip's loads, through whole staging buffers, are the chunks of the buffers' contents. -/
theorem readAt_x (arg1 : Memref sig .tc .vmem S16000x64 .f32) (harg1 : arg1.IsWhole) (arg2 : Memref sig .tc .vmem S128x64 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1x16000 .i32) (harg6 : arg6.IsWhole) (arg7 : Memref sig .tc .vmem S1x1x16000 .f32) (harg7 : arg7.IsWhole) (arg8 : Memref sig .tc .vmem S1x1x2 .f32) (harg8 : arg8.IsWhole) (x0 : Vec F S16000x64 .f32) (k : Fin k0_t1_loop.trips) :
    View.readAt (Elt F) arg1.view (Rect.unit (s := S16000x64) (k0_off1 k) S3200x64.size (k0_off1_inb k)).toLoadRect (harg1.unread x0)
      = xChunk x0 k := by
  unfold xChunk
  rw [View.readAt_eq_ld, harg1.read_unread]

theorem readAt_t (arg1 : Memref sig .tc .vmem S16000x64 .f32) (harg1 : arg1.IsWhole) (arg2 : Memref sig .tc .vmem S128x64 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1x16000 .i32) (harg6 : arg6.IsWhole) (arg7 : Memref sig .tc .vmem S1x1x16000 .f32) (harg7 : arg7.IsWhole) (arg8 : Memref sig .tc .vmem S1x1x2 .f32) (harg8 : arg8.IsWhole) (x5 : Vec F S1x1x16000 .i32) (k : Fin k0_t1_loop.trips) :
    View.readAt (Elt F) arg6.view (Rect.unit (s := S1x1x16000) (k0_off2 k) S1x1x3200.size (k0_off2_inb k)).toLoadRect (harg6.unread x5)
      = tChunk x5 k := by
  unfold tChunk
  rw [View.readAt_eq_ld, harg6.read_unread]

/-- One trip's piece and yield, opened once. -/
theorem tripL_eq (c : Dev nD) (i : grid0.Coords) (arg1 : Memref sig .tc .vmem S16000x64 .f32) (harg1 : arg1.IsWhole) (arg2 : Memref sig .tc .vmem S128x64 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1x16000 .i32) (harg6 : arg6.IsWhole) (arg7 : Memref sig .tc .vmem S1x1x16000 .f32) (harg7 : arg7.IsWhole) (arg8 : Memref sig .tc .vmem S1x1x2 .f32) (harg8 : arg8.IsWhole) (x0 : Vec F S16000x64 .f32) (x1 : Vec F S128x64 .f32) (x2 : Vec F S128x1 .f32) (x3 : Vec F S128x1 .f32) (x4 : Vec F S1x1 .f32) (x5 : Vec F S1x1x16000 .i32) (k : Fin k0_t1_loop.trips) (acc : FVec F S1x1 .f32 × FVec F S1x1 .f32) :
    tripL_k0_t1 (F := F) Variants.none c none i arg1 harg1 arg2 harg2 arg3 harg3 arg4 harg4 arg5 harg5 arg6 harg6 arg7 harg7 arg8 harg8 x1 x2 x3 x4 (harg1.unread x0) (harg6.unread x5) k acc
      = [chunkPiece x0 x1 x2 x3 x4 k] := by
  unfold tripL_k0_t1 trip_k0_t1 chunkPiece
  dsimp only
  rw [readAt_x arg1 harg1 arg2 harg2 arg3 harg3 arg4 harg4 arg5 harg5 arg6 harg6 arg7 harg7 arg8 harg8 x0 k]

theorem tripR_eq (c : Dev nD) (i : grid0.Coords) (arg1 : Memref sig .tc .vmem S16000x64 .f32) (harg1 : arg1.IsWhole) (arg2 : Memref sig .tc .vmem S128x64 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1x16000 .i32) (harg6 : arg6.IsWhole) (arg7 : Memref sig .tc .vmem S1x1x16000 .f32) (harg7 : arg7.IsWhole) (arg8 : Memref sig .tc .vmem S1x1x2 .f32) (harg8 : arg8.IsWhole) (x0 : Vec F S16000x64 .f32) (x1 : Vec F S128x64 .f32) (x2 : Vec F S128x1 .f32) (x3 : Vec F S128x1 .f32) (x4 : Vec F S1x1 .f32) (x5 : Vec F S1x1x16000 .i32) (k : Fin k0_t1_loop.trips) (acc : FVec F S1x1 .f32 × FVec F S1x1 .f32) :
    tripR_k0_t1 (F := F) Variants.none c none i arg1 harg1 arg2 harg2 arg3 harg3 arg4 harg4 arg5 harg5 arg6 harg6 arg7 harg7 arg8 harg8 x1 x2 x3 x4 (harg1.unread x0) (harg6.unread x5) k acc
      = (k0_pay6 x1 x2 x3 x4 acc.1 (xChunk x0 k) (tChunk x5 k), k0_pay7 x1 x2 x3 x4 acc.2 (xChunk x0 k) (tChunk x5 k)) := by
  unfold tripR_k0_t1 trip_k0_t1
  dsimp only
  rw [readAt_x arg1 harg1 arg2 harg2 arg3 harg3 arg4 harg4 arg5 harg5 arg6 harg6 arg7 harg7 arg8 harg8 x0 k,
    readAt_t arg1 harg1 arg2 harg2 arg3 harg3 arg4 harg4 arg5 harg5 arg6 harg6 arg7 harg7 arg8 harg8 x5 k]

/-- The loop's state after `k` trips: the carried pair is `carried … k`, and every piece stored so far is some
    trip's chunk piece. By induction on the trips, each step the trip's piece and yield above. -/
theorem st_after (c : Dev nD) (i : grid0.Coords) (arg1 : Memref sig .tc .vmem S16000x64 .f32) (harg1 : arg1.IsWhole) (arg2 : Memref sig .tc .vmem S128x64 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1x16000 .i32) (harg6 : arg6.IsWhole) (arg7 : Memref sig .tc .vmem S1x1x16000 .f32) (harg7 : arg7.IsWhole) (arg8 : Memref sig .tc .vmem S1x1x2 .f32) (harg8 : arg8.IsWhole) (x0 : Vec F S16000x64 .f32) (x1 : Vec F S128x64 .f32) (x2 : Vec F S128x1 .f32) (x3 : Vec F S128x1 .f32) (x4 : Vec F S1x1 .f32) (x5 : Vec F S1x1x16000 .i32) :
    ∀ k, k ≤ k0_t1_loop.trips →
      (st_k0_t1 (F := F) Variants.none c none i arg1 harg1 arg2 harg2 arg3 harg3 arg4 harg4 arg5 harg5 arg6 harg6 arg7 harg7 arg8 harg8 x1 x2 x3 x4 (harg1.unread x0) (harg6.unread x5) (k0_pay1, k0_pay2) k).1 = carried x0 x1 x2 x3 x4 x5 k
      ∧ ∀ p ∈ (st_k0_t1 (F := F) Variants.none c none i arg1 harg1 arg2 harg2 arg3 harg3 arg4 harg4 arg5 harg5 arg6 harg6 arg7 harg7 arg8 harg8 x1 x2 x3 x4 (harg1.unread x0) (harg6.unread x5) (k0_pay1, k0_pay2) k).2, ∃ j : Fin k0_t1_loop.trips, p = chunkPiece x0 x1 x2 x3 x4 j
  | 0, _ => ⟨rfl, fun p hp => absurd hp List.not_mem_nil⟩
  | k + 1, hk => by
    have hlt : k < k0_t1_loop.trips := hk
    obtain ⟨ih1, ih2⟩ := st_after c i arg1 harg1 arg2 harg2 arg3 harg3 arg4 harg4 arg5 harg5 arg6 harg6 arg7 harg7 arg8 harg8 x0 x1 x2 x3 x4 x5 k (Nat.le_of_lt hlt)
    have hs := st_k0_t1_succ (F := F) Variants.none c none i arg1 harg1 arg2 harg2 arg3 harg3 arg4 harg4 arg5 harg5 arg6 harg6 arg7 harg7 arg8 harg8 x1 x2 x3 x4 (harg1.unread x0) (harg6.unread x5) (k0_pay1, k0_pay2) ⟨k, hlt⟩
    rw [tripR_eq c i arg1 harg1 arg2 harg2 arg3 harg3 arg4 harg4 arg5 harg5 arg6 harg6 arg7 harg7 arg8 harg8 x0 x1 x2 x3 x4 x5, tripL_eq c i arg1 harg1 arg2 harg2 arg3 harg3 arg4 harg4 arg5 harg5 arg6 harg6 arg7 harg7 arg8 harg8 x0 x1 x2 x3 x4 x5] at hs
    have hs' : st_k0_t1 (F := F) Variants.none c none i arg1 harg1 arg2 harg2 arg3 harg3 arg4 harg4 arg5 harg5 arg6 harg6 arg7 harg7 arg8 harg8 x1 x2 x3 x4 (harg1.unread x0) (harg6.unread x5) (k0_pay1, k0_pay2) (k + 1) = _ := hs
    rw [hs']
    refine ⟨?_, ?_⟩
    · show (_, _) = carried x0 x1 x2 x3 x4 x5 (k + 1)
      rw [carried, dif_pos hlt, ih1]
    · intro p hp
      rcases List.mem_append.mp hp with h | h
      · exact ⟨⟨k, hlt⟩, List.mem_singleton.mp h⟩
      · exact ih2 p h

theorem hz2 : (![0, 0] : Fin 2 → Nat) = fun _ => 0 := funext fun a => by fin_cases a <;> rfl
theorem hz3 : (![0, 0, 0] : Fin 3 → Nat) = fun _ => 0 := funext fun a => by fin_cases a <;> rfl

/-- The body's stores into the first output block are the loop's pieces after its last trip. -/
theorem run_pieces6 (c : Dev nD) (i : grid0.Coords) (arg1 : Memref sig .tc .vmem S16000x64 .f32) (harg1 : arg1.IsWhole) (arg2 : Memref sig .tc .vmem S128x64 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1x16000 .i32) (harg6 : arg6.IsWhole) (arg7 : Memref sig .tc .vmem S1x1x16000 .f32) (harg7 : arg7.IsWhole) (arg8 : Memref sig .tc .vmem S1x1x2 .f32) (harg8 : arg8.IsWhole) (x0 : Vec F S16000x64 .f32) (x1 : Vec F S128x64 .f32) (x2 : Vec F S128x1 .f32) (x3 : Vec F S128x1 .f32) (x4 : Vec F S1x1 .f32) (x5 : Vec F S1x1x16000 .i32) :
    (kernelRun0_A (F := F) c i arg1 harg1 arg2 harg2 arg3 harg3 arg4 harg4 arg5 harg5 arg6 harg6 arg7 harg7 arg8 harg8 x0 x1 x2 x3 x4 x5).1 = (st_k0_t1 (F := F) Variants.none c none i arg1 harg1 arg2 harg2 arg3 harg3 arg4 harg4 arg5 harg5 arg6 harg6 arg7 harg7 arg8 harg8 x1 x2 x3 x4 (harg1.unread x0) (harg6.unread x5) (k0_pay1, k0_pay2) k0_t1_loop.trips).2 := by
  unfold kernelRun0_A
  dsimp only
  simp only [View.readAt_eq_ld, harg2.read_unread, harg3.read_unread, harg4.read_unread, harg5.read_unread,
    View.ld_unit_zero (S := S128x64) hz2, View.ld_unit_zero (S := S128x1) hz2, View.ld_unit_zero (S := S1x1) hz2]

/-- Its one store into the second output block is the pair the loop ends with, side by side. -/
theorem run_pieces7 (c : Dev nD) (i : grid0.Coords) (arg1 : Memref sig .tc .vmem S16000x64 .f32) (harg1 : arg1.IsWhole) (arg2 : Memref sig .tc .vmem S128x64 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1x16000 .i32) (harg6 : arg6.IsWhole) (arg7 : Memref sig .tc .vmem S1x1x16000 .f32) (harg7 : arg7.IsWhole) (arg8 : Memref sig .tc .vmem S1x1x2 .f32) (harg8 : arg8.IsWhole) (x0 : Vec F S16000x64 .f32) (x1 : Vec F S128x64 .f32) (x2 : Vec F S128x1 .f32) (x3 : Vec F S128x1 .f32) (x4 : Vec F S1x1 .f32) (x5 : Vec F S1x1x16000 .i32) :
    (kernelRun0_A (F := F) c i arg1 harg1 arg2 harg2 arg3 harg3 arg4 harg4 arg5 harg5 arg6 harg6 arg7 harg7 arg8 harg8 x0 x1 x2 x3 x4 x5).2.1
      = [⟨Rect.unit (s := S1x1x2) ![0, 0, 0] S1x1x2.size inb_S1x1x2_S1x1x2_0_0_0,
          k0_pay8 (st_k0_t1 (F := F) Variants.none c none i arg1 harg1 arg2 harg2 arg3 harg3 arg4 harg4 arg5 harg5 arg6 harg6 arg7 harg7 arg8 harg8 x1 x2 x3 x4 (harg1.unread x0) (harg6.unread x5) (k0_pay1, k0_pay2) k0_t1_loop.trips).1.1 (st_k0_t1 (F := F) Variants.none c none i arg1 harg1 arg2 harg2 arg3 harg3 arg4 harg4 arg5 harg5 arg6 harg6 arg7 harg7 arg8 harg8 x1 x2 x3 x4 (harg1.unread x0) (harg6.unread x5) (k0_pay1, k0_pay2) k0_t1_loop.trips).1.2⟩] := by
  unfold kernelRun0_A
  dsimp only
  simp only [View.readAt_eq_ld, harg2.read_unread, harg3.read_unread, harg4.read_unread, harg5.read_unread,
    View.ld_unit_zero (S := S128x64) hz2, View.ld_unit_zero (S := S128x1) hz2, View.ld_unit_zero (S := S1x1) hz2]

/-- The chunk a place of the block lies in, and its place there. -/
def chunkOf (q : Fin 16000) : Fin k0_t1_loop.trips := ⟨q.val / 3200, by rw [trips_eq]; have := q.isLt; omega⟩
def inChunk (q : Fin 16000) : Fin 3200 := ⟨q.val % 3200, Nat.mod_lt _ (by decide)⟩

/-- The first output block, as one function of the place: the score payload of the place's chunk, at the place's
    position in the chunk. -/
def scoreBlock (x0 : Vec F S16000x64 .f32) (x1 : Vec F S128x64 .f32) (x2 : Vec F S128x1 .f32) (x3 : Vec F S128x1 .f32)
    (x4 : Vec F S1x1 .f32) : Vec F S1x1x16000 .f32 := fun y =>
  k0_pay4 x1 x2 x3 x4 (xChunk x0 (chunkOf ⟨(y 2).val, (y 2).isLt⟩)) (ValueIdx.ix3 0 0 (inChunk ⟨(y 2).val, (y 2).isLt⟩))

/-- Every trip's piece is that function read through the piece's rectangle. -/
theorem chunkPiece_agrees (x0 : Vec F S16000x64 .f32) (x1 : Vec F S128x64 .f32) (x2 : Vec F S128x1 .f32) (x3 : Vec F S128x1 .f32)
    (x4 : Vec F S1x1 .f32) (j : Fin k0_t1_loop.trips) (x : (chunkPiece x0 x1 x2 x3 x4 j).1.shape.Idx) :
    (chunkPiece x0 x1 x2 x3 x4 j).2 x = scoreBlock x0 x1 x2 x3 x4 ((chunkPiece x0 x1 x2 x3 x4 j).1.emb x) := by
  have hj : j.val < 5 := Nat.lt_of_lt_of_le j.isLt (le_of_eq trips_eq)
  have hx2 : (x 2).val < 3200 := (x 2).isLt
  have hoff : k0_off2 j 2 = 3200 * j.val := by rw [k0_off2_eq]; rfl
  have he : (((chunkPiece x0 x1 x2 x3 x4 j).1.emb x) 2).val = 3200 * j.val + (x 2).val := by
    show k0_off2 j 2 + 1 * (x 2).val = _
    rw [hoff]; omega
  unfold scoreBlock
  have hc : chunkOf ⟨(((chunkPiece x0 x1 x2 x3 x4 j).1.emb x) 2).val, (((chunkPiece x0 x1 x2 x3 x4 j).1.emb x) 2).isLt⟩ = j := by
    apply Fin.ext; show (((chunkPiece x0 x1 x2 x3 x4 j).1.emb x) 2).val / 3200 = j.val; rw [he]; omega
  have hi : inChunk ⟨(((chunkPiece x0 x1 x2 x3 x4 j).1.emb x) 2).val, (((chunkPiece x0 x1 x2 x3 x4 j).1.emb x) 2).isLt⟩ = ⟨(x 2).val, hx2⟩ := by
    apply Fin.ext; show (((chunkPiece x0 x1 x2 x3 x4 j).1.emb x) 2).val % 3200 = (x 2).val; rw [he]; omega
  rw [hc, hi]
  show k0_pay4 x1 x2 x3 x4 (xChunk x0 j) x = _
  congr 1
  funext a
  match a with
  | ⟨0, _⟩ => exact Subsingleton.elim (α := Fin 1) _ _
  | ⟨1, _⟩ => exact Subsingleton.elim (α := Fin 1) _ _
  | ⟨2, _⟩ => rfl

/-- What the body leaves in the first output's staging buffer is that function. -/
theorem out6_eq (c : Dev nD) (i : grid0.Coords) (arg1 : Memref sig .tc .vmem S16000x64 .f32) (harg1 : arg1.IsWhole) (arg2 : Memref sig .tc .vmem S128x64 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1x16000 .i32) (harg6 : arg6.IsWhole) (arg7 : Memref sig .tc .vmem S1x1x16000 .f32) (harg7 : arg7.IsWhole) (arg8 : Memref sig .tc .vmem S1x1x2 .f32) (harg8 : arg8.IsWhole) (x0 : Vec F S16000x64 .f32) (x1 : Vec F S128x64 .f32) (x2 : Vec F S128x1 .f32) (x3 : Vec F S128x1 .f32) (x4 : Vec F S1x1 .f32) (x5 : Vec F S1x1x16000 .i32) :
    out0_A_6 (F := F) c i arg1 harg1 arg2 harg2 arg3 harg3 arg4 harg4 arg5 harg5 arg6 harg6 arg7 harg7 arg8 harg8 x0 x1 x2 x3 x4 x5 = scoreBlock x0 x1 x2 x3 x4 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  funext y
  refine View.canon_apply_of_pieces (scoreBlock x0 x1 x2 x3 x4) _ ?_ y (cover0_A_6 c i arg1 harg1 arg2 harg2 arg3 harg3 arg4 harg4 arg5 harg5 arg6 harg6 arg7 harg7 arg8 harg8 x0 x1 x2 x3 x4 x5 y)
  intro p hp x
  rw [run_pieces6] at hp
  obtain ⟨j, rfl⟩ := (st_after c i arg1 harg1 arg2 harg2 arg3 harg3 arg4 harg4 arg5 harg5 arg6 harg6 arg7 harg7 arg8 harg8 x0 x1 x2 x3 x4 x5 k0_t1_loop.trips (Nat.le_refl _)).2 p hp
  exact chunkPiece_agrees x0 x1 x2 x3 x4 j x

/-- And in the second output's staging buffer: the pair the loop ends with, side by side. -/
theorem out7_eq (c : Dev nD) (i : grid0.Coords) (arg1 : Memref sig .tc .vmem S16000x64 .f32) (harg1 : arg1.IsWhole) (arg2 : Memref sig .tc .vmem S128x64 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1x16000 .i32) (harg6 : arg6.IsWhole) (arg7 : Memref sig .tc .vmem S1x1x16000 .f32) (harg7 : arg7.IsWhole) (arg8 : Memref sig .tc .vmem S1x1x2 .f32) (harg8 : arg8.IsWhole) (x0 : Vec F S16000x64 .f32) (x1 : Vec F S128x64 .f32) (x2 : Vec F S128x1 .f32) (x3 : Vec F S128x1 .f32) (x4 : Vec F S1x1 .f32) (x5 : Vec F S1x1x16000 .i32) :
    out0_A_7 (F := F) c i arg1 harg1 arg2 harg2 arg3 harg3 arg4 harg4 arg5 harg5 arg6 harg6 arg7 harg7 arg8 harg8 x0 x1 x2 x3 x4 x5
      = k0_pay8 (carried x0 x1 x2 x3 x4 x5 k0_t1_loop.trips).1 (carried x0 x1 x2 x3 x4 x5 k0_t1_loop.trips).2 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  rw [run_pieces7, View.canon_unit_zero hz3,
    (st_after c i arg1 harg1 arg2 harg2 arg3 harg3 arg4 harg4 arg5 harg5 arg6 harg6 arg7 harg7 arg8 harg8 x0 x1 x2 x3 x4 x5 k0_t1_loop.trips (Nat.le_refl _)).1]

/-! ## The chunks read at an index, and the carried pair one trip on -/

/-- Place `j` of chunk `k`, as a place of the block. -/
def placeIn (k : Fin k0_t1_loop.trips) (j : Fin 3200) : Fin 16000 :=
  ⟨3200 * k.val + j.val, by have := Nat.lt_of_lt_of_le k.isLt (le_of_eq trips_eq); have := j.isLt; omega⟩

theorem xChunk_apply (x0 : Vec F S16000x64 .f32) (k : Fin k0_t1_loop.trips) (j : Fin 3200) (d : Fin 64) :
    xChunk x0 k (ValueIdx.ix2 j d) = x0 (ValueIdx.ix2 (placeIn k j) d) := by
  have h0 : k0_off1 k 0 = 3200 * k.val := by rw [k0_off1_eq]; rfl
  have h1 : k0_off1 k 1 = 0 := by rw [k0_off1_eq]; rfl
  show x0 ((Rect.unit (s := S16000x64) (k0_off1 k) S3200x64.size (k0_off1_inb k)).idx (ValueIdx.ix2 j d)) = _
  congr 1
  funext a
  apply Fin.ext
  match a with
  | ⟨0, _⟩ => show k0_off1 k 0 + 1 * j.val = 3200 * k.val + j.val; rw [h0]; omega
  | ⟨1, _⟩ => show k0_off1 k 1 + 1 * d.val = d.val; rw [h1]; omega

theorem tChunk_apply (x5 : Vec F S1x1x16000 .i32) (k : Fin k0_t1_loop.trips) (j : Fin 3200) :
    tChunk x5 k (ValueIdx.ix3 0 0 j) = x5 (ValueIdx.ix3 0 0 (placeIn k j)) := by
  have h0 : k0_off2 k 0 = 0 := by rw [k0_off2_eq]; rfl
  have h1 : k0_off2 k 1 = 0 := by rw [k0_off2_eq]; rfl
  have h2 : k0_off2 k 2 = 3200 * k.val := by rw [k0_off2_eq]; rfl
  show x5 ((Rect.unit (s := S1x1x16000) (k0_off2 k) S1x1x3200.size (k0_off2_inb k)).idx (ValueIdx.ix3 0 0 j)) = _
  congr 1
  funext a
  apply Fin.ext
  match a with
  | ⟨0, _⟩ => show k0_off2 k 0 + 1 * 0 = 0; rw [h0]
  | ⟨1, _⟩ => show k0_off2 k 1 + 1 * 0 = 0; rw [h1]
  | ⟨2, _⟩ => show k0_off2 k 2 + 1 * j.val = 3200 * k.val + j.val; rw [h2]; omega

theorem carried_zero (x0 : Vec F S16000x64 .f32) (x1 : Vec F S128x64 .f32) (x2 : Vec F S128x1 .f32) (x3 : Vec F S128x1 .f32) (x4 : Vec F S1x1 .f32) (x5 : Vec F S1x1x16000 .i32) : carried x0 x1 x2 x3 x4 x5 0 = (k0_pay1, k0_pay2) := rfl

theorem carried_succ (x0 : Vec F S16000x64 .f32) (x1 : Vec F S128x64 .f32) (x2 : Vec F S128x1 .f32) (x3 : Vec F S128x1 .f32) (x4 : Vec F S1x1 .f32) (x5 : Vec F S1x1x16000 .i32) (k : Nat) (h : k < k0_t1_loop.trips) :
    carried x0 x1 x2 x3 x4 x5 (k + 1)
      = (k0_pay6 x1 x2 x3 x4 (carried x0 x1 x2 x3 x4 x5 k).1 (xChunk x0 ⟨k, h⟩) (tChunk x5 ⟨k, h⟩),
         k0_pay7 x1 x2 x3 x4 (carried x0 x1 x2 x3 x4 x5 k).2 (xChunk x0 ⟨k, h⟩) (tChunk x5 ⟨k, h⟩)) := by
  rw [carried, dif_pos h]

/-- A place of the block is the place of its chunk at its position there. -/
theorem placeIn_chunkOf (q : Fin 16000) : placeIn (chunkOf q) (inChunk q) = q := by
  apply Fin.ext
  show 3200 * (q.val / 3200) + q.val % 3200 = q.val
  omega

end Cert.KernelIdeal.Hand

end
-- ==== Proof.KNames.lean ====
/-
  Names, at their literal types, for the four arrays the value proof speaks of: the kernel's two result arrays as
  the region leaves them, the labels as @main was given them, and @main's result after the host's last operations.
-/
import proofs.«411640_j35201551958668_3_alg».proof.Proof.Gen.KernelIdeal.Frame

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The scores, [125, 1, 16000], after the kernel. -/
abbrev arr6 (c : Dev nD) : Vec F S125x1x16000 .f32 := (dats m 0 c).arrAt 6 cfg0.N
/-- The per-block label totals, [125, 1, 2], after the kernel. -/
abbrev arr7 (c : Dev nD) : Vec F S125x1x2 .f32 := (dats m 0 c).arrAt 7 cfg0.N
/-- The labels. -/
abbrev labelArr (c : Dev nD) : Vec F S2000000 .i32 := m ((c : Thread nD τ).loc main_arg1)
/-- @main's result after the host operations that follow the kernel. -/
abbrev resultArr (c : Dev nD) : Vec F S2000000 .f32 :=
  Pipeline.afterTail₀ cfgs (dats m) 0 (V0 m) [hostOps1, hostOps1_1, hostOps1_2] c main_v15

end Cert.KernelIdeal.Hand

end
-- ==== Proof.InBlocks.lean ====
/-
  The six input blocks the kernel body is given at grid point `t`, read off @main's arguments: rows
  [16000t, 16000t + 16000) of x and of the labels, and the whole of the two weight arrays and the two biases —
  the first-layer bias as a column, the second layer's weights as a column, its bias as a 1×1 block, as the host
  reshapes them before the kernel is launched.
-/
import proofs.«411640_j35201551958668_3_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- Row `r` of the block of grid point `t`, as a row of the whole array. -/
def rowAt (t : Fin cfg0.N) (r : Fin 16000) : Fin 2000000 :=
  ⟨16000 * t.val + r.val, by have h1 := t.isLt; have h2 : cfg0.N = 125 := N_0; have h3 := r.isLt; omega⟩

/-- The first-layer bias as the kernel finds it: the host's column reshape of the bias argument. -/
theorem V_v1 (c : Dev nD) :
    (V m c main_v1 : S128x1.Idx → Elt F .f32)
      = shapeCast S128x1 (m ((c : Thread nD τ).loc main_arg3)) shapeCasts_S128_S128x1 := by
  show StableHlo.after hostOps0 (fun b => m (c, b)) (Proc.devRef .tc main_v1) = _
  after_results
  rfl

/-- The second layer's weights as the kernel finds them: the host's column reshape of the 1 × 128 argument. -/
theorem V_v2 (c : Dev nD) :
    (V m c main_v2 : S128x1.Idx → Elt F .f32)
      = shapeCast S128x1 (m ((c : Thread nD τ).loc main_arg4)) shapeCasts_S1x128_S128x1 := by
  show StableHlo.after hostOps0 (fun b => m (c, b)) (Proc.devRef .tc main_v2) = _
  after_results
  rfl

/-- The second layer's bias as the kernel finds it: the host's 1 × 1 reshape of the one-element argument. -/
theorem V_v3 (c : Dev nD) :
    (V m c main_v3 : S1x1.Idx → Elt F .f32)
      = shapeCast S1x1 (m ((c : Thread nD τ).loc main_arg5)) shapeCasts_S1_S1x1 := by
  show StableHlo.after hostOps0 (fun b => m (c, b)) (Proc.devRef .tc main_v3) = _
  after_results
  rfl

/-- The labels as the kernel finds them: the host's 125 × 1 × 16000 reshape of the label argument. -/
theorem V_v0 (c : Dev nD) :
    (V m c main_v0 : S125x1x16000.Idx → Elt F .i32)
      = shapeCast S125x1x16000 (m ((c : Thread nD τ).loc main_arg1)) shapeCasts_S2000000_S125x1x16000 := by
  show StableHlo.after hostOps0 (fun b => m (c, b)) (Proc.devRef .tc main_v0) = _
  after_results
  rfl

/- Each block coordinate is (block index) × (block size) + 1 × (coordinate inside the block); the index maps'
   values are decided once over the 125 grid points. -/

theorem blk_x (c : Dev nD) (t : Fin cfg0.N) (r : Fin 16000) (d : Fin 64) :
    (iblk m c 0 t : Vec F S16000x64 .f32) (ix2 r d)
      = (m ((c : Thread nD τ).loc main_arg0) : Vec F S2000000x64 .f32) (ix2 (rowAt t r) d) := by
  have hN : cfg0.N = 125 := N_0
  have hi : ∀ t : Fin cfg0.N, win0_0.index t 0 = t.val ∧ win0_0.index t 1 = 0 := by decide +kernel
  unfold iblk
  rw [View.read_apply]
  show V m c main_arg0 _ = _
  rw [V_main_arg0]
  congr 1
  funext a
  apply Fin.ext
  match a with
  | ⟨0, _⟩ => show win0_0.index t 0 * 16000 + 1 * r.val = 16000 * t.val + r.val; rw [(hi t).1]; omega
  | ⟨1, _⟩ => show win0_0.index t 1 * 64 + 1 * d.val = d.val; rw [(hi t).2]; omega

theorem blk_w1 (c : Dev nD) (t : Fin cfg0.N) (h : Fin 128) (d : Fin 64) :
    (iblk m c 1 t : Vec F S128x64 .f32) (ix2 h d)
      = (m ((c : Thread nD τ).loc main_arg2) : Vec F S128x64 .f32) (ix2 h d) := by
  have hN : cfg0.N = 125 := N_0
  have hi : ∀ t : Fin cfg0.N, win0_1.index t 0 = 0 ∧ win0_1.index t 1 = 0 := by decide +kernel
  unfold iblk
  rw [View.read_apply]
  show V m c main_arg2 _ = _
  rw [V_main_arg2]
  congr 1
  funext a
  apply Fin.ext
  match a with
  | ⟨0, _⟩ => show win0_1.index t 0 * 128 + 1 * h.val = h.val; rw [(hi t).1]; omega
  | ⟨1, _⟩ => show win0_1.index t 1 * 64 + 1 * d.val = d.val; rw [(hi t).2]; omega

theorem blk_b1 (c : Dev nD) (t : Fin cfg0.N) (h : Fin 128) :
    (iblk m c 2 t : Vec F S128x1 .f32) (ix2 h 0)
      = (m ((c : Thread nD τ).loc main_arg3) : Vec F S128 .f32) (ix1 h) := by
  have hN : cfg0.N = 125 := N_0
  have hi : ∀ t : Fin cfg0.N, win0_2.index t 0 = 0 ∧ win0_2.index t 1 = 0 := by decide +kernel
  unfold iblk
  rw [View.read_apply]
  show V m c main_v1 _ = _
  rw [V_v1]
  -- entry (h, 0) of the column and entry h of the vector share the row-major position h
  refine shapeCast_apply (s := S128) (t := S128x1) _ _ _ _ ?_
  rw [Shape.rowMajor_val_two, Shape.rowMajor_val_one]
  show h.val = (win0_2.index t 0 * 128 + 1 * h.val) * 1 + (win0_2.index t 1 * 1 + 1 * 0)
  rw [(hi t).1, (hi t).2]; omega

theorem blk_w2 (c : Dev nD) (t : Fin cfg0.N) (h : Fin 128) :
    (iblk m c 3 t : Vec F S128x1 .f32) (ix2 h 0)
      = (m ((c : Thread nD τ).loc main_arg4) : Vec F S1x128 .f32) (ix2 0 h) := by
  have hN : cfg0.N = 125 := N_0
  have hi : ∀ t : Fin cfg0.N, win0_3.index t 0 = 0 ∧ win0_3.index t 1 = 0 := by decide +kernel
  unfold iblk
  rw [View.read_apply]
  show V m c main_v2 _ = _
  rw [V_v2]
  -- entry (h, 0) of the column and entry (0, h) of the row share the row-major position h
  refine shapeCast_apply (s := S1x128) (t := S128x1) _ _ _ _ ?_
  rw [Shape.rowMajor_val_two, Shape.rowMajor_val_two]
  show 0 * 128 + h.val = (win0_3.index t 0 * 128 + 1 * h.val) * 1 + (win0_3.index t 1 * 1 + 1 * 0)
  rw [(hi t).1, (hi t).2]; omega

theorem blk_b2 (c : Dev nD) (t : Fin cfg0.N) :
    (iblk m c 4 t : Vec F S1x1 .f32) (ix2 0 0)
      = (m ((c : Thread nD τ).loc main_arg5) : Vec F S1 .f32) (ix1 0) := by
  have hN : cfg0.N = 125 := N_0
  have hi : ∀ t : Fin cfg0.N, win0_4.index t 0 = 0 ∧ win0_4.index t 1 = 0 := by decide +kernel
  unfold iblk
  rw [View.read_apply]
  show V m c main_v3 _ = _
  rw [V_v3]
  refine shapeCast_apply (s := S1) (t := S1x1) _ _ _ _ ?_
  rw [Shape.rowMajor_val_two, Shape.rowMajor_val_one]
  show 0 = (win0_4.index t 0 * 1 + 1 * 0) * 1 + (win0_4.index t 1 * 1 + 1 * 0)
  rw [(hi t).1, (hi t).2]

theorem blk_t (c : Dev nD) (t : Fin cfg0.N) (r : Fin 16000) :
    (iblk m c 5 t : Vec F S1x1x16000 .i32) (ix3 0 0 r)
      = (m ((c : Thread nD τ).loc main_arg1) : Vec F S2000000 .i32) (ix1 (rowAt t r)) := by
  have hN : cfg0.N = 125 := N_0
  have hi : ∀ t : Fin cfg0.N, win0_5.index t 0 = t.val ∧ win0_5.index t 1 = 0 ∧ win0_5.index t 2 = 0 := by decide +kernel
  unfold iblk
  rw [View.read_apply]
  show V m c main_v0 _ = _
  rw [V_v0]
  -- entry (t, 0, r) of the 125 × 1 × 16000 array and entry 16000t + r of the vector share their row-major position
  refine shapeCast_apply (s := S2000000) (t := S125x1x16000) _ _ _ _ ?_
  rw [Shape.rowMajor_val_three, Shape.rowMajor_val_one]
  show 16000 * t.val + r.val = ((win0_5.index t 0 * 1 + 1 * 0) * 1 + (win0_5.index t 1 * 1 + 1 * 0)) * 16000 + (win0_5.index t 2 * 16000 + 1 * r.val)
  rw [(hi t).1, (hi t).2.1, (hi t).2.2]; omega

end Cert.KernelIdeal.Hand

end
-- ==== Proof.Spec.lean ====
/-
  What both programs compute, as functions of the six argument arrays read at the extended reals.

  For a row `n` the score is  e(n) = exp( Σ_h tanh( Σ_d x[n,d]·W1[h,d] + b1[h] ) · W2[0,h] + b2[0] ),
  and the result at `n` is  e(n) / Σ { e(k) : k carries the same label as n }.

  The kernel does not form that label sum directly. It walks the 2,000,000 rows as 125 blocks of 5 chunks of
  3,200 rows; per chunk it adds up the scores of the rows labelled 0 (`chunk0`) and all scores (`chunkAll`),
  carries the running totals of `chunk0` and of `chunkAll − chunk0` over a block's five chunks from zero
  (`part0`, `part1`), and the host then adds the 125 block totals onto zero.
-/
import Idealize.ShloMosaic.PureOps.Ideal
import Idealize.ShloMosaic.Lib.ValueIdx

noncomputable section

open scoped BigOperators

namespace Cert.SegNorm

open Idealize.ShloMosaic Idealize.ShloMosaic.ValueIdx

/-- The argument arrays' shapes: rows × features, rows, hidden × features, hidden, 1 × hidden, 1. -/
abbrev SX : Shape := ⟨2, ![2000000, 64]⟩
abbrev SN : Shape := ⟨1, ![2000000]⟩
abbrev SW1 : Shape := ⟨2, ![128, 64]⟩
abbrev SB1 : Shape := ⟨1, ![128]⟩
abbrev SW2 : Shape := ⟨2, ![1, 128]⟩
abbrev SB2 : Shape := ⟨1, ![1]⟩

/-- Hidden unit `h` of row `n`: tanh of the affine form of the row. -/
def hid (x : SX.Idx → EReal) (W1 : SW1.Idx → EReal) (b1 : SB1.Idx → EReal) (n : Fin 2000000) (h : Fin 128) : EReal :=
  Ideal.tanh ((∑ d : Fin 64, x (ix2 n d) * W1 (ix2 h d)) + b1 (ix1 h))

/-- The score of row `n`: the exponential of the second affine form of its hidden units. -/
def score (x : SX.Idx → EReal) (W1 : SW1.Idx → EReal) (b1 : SB1.Idx → EReal) (W2 : SW2.Idx → EReal)
    (b2 : SB2.Idx → EReal) (n : Fin 2000000) : EReal :=
  Ideal.exp ((∑ h : Fin 128, hid x W1 b1 n h * W2 (ix2 0 h)) + b2 (ix1 0))

/-- The sum of `e` over the rows whose label is `t`. -/
def groupSum (T : Fin 2000000 → BitVec 32) (e : Fin 2000000 → EReal) (t : BitVec 32) : EReal :=
  ∑ k ∈ Finset.univ.filter (fun k : Fin 2000000 => T k = t), e k

/-- The result: each row's score over the sum of the scores of the rows with its label. -/
def out (x : SX.Idx → EReal) (T : SN.Idx → BitVec 32) (W1 : SW1.Idx → EReal) (b1 : SB1.Idx → EReal)
    (W2 : SW2.Idx → EReal) (b2 : SB2.Idx → EReal) : SN.Idx → EReal := fun i =>
  Ideal.div (score x W1 b1 W2 b2 ⟨(i 0).val, (i 0).isLt⟩)
    (groupSum (fun k => T (ix1 k)) (score x W1 b1 W2 b2) (T i))

/-! ## The kernel's grouping of the rows -/

/-- Row `j` of chunk `c` of block `b`. -/
def rowOf (b : Fin 125) (c : Fin 5) (j : Fin 3200) : Fin 2000000 :=
  ⟨16000 * b.val + 3200 * c.val + j.val, by have := b.isLt; have := c.isLt; have := j.isLt; omega⟩

/-- The indicator of label 0 as an extended real. -/
def ind (t : BitVec 32) : EReal := if t = 0#32 then 1 else 0

/-- A chunk's sum of the scores of its rows labelled 0. -/
def chunk0 (e : Fin 2000000 → EReal) (T : Fin 2000000 → BitVec 32) (b : Fin 125) (c : Fin 5) : EReal :=
  ∑ j : Fin 3200, e (rowOf b c j) * ind (T (rowOf b c j))

/-- A chunk's sum of all its scores. -/
def chunkAll (e : Fin 2000000 → EReal) (b : Fin 125) (c : Fin 5) : EReal :=
  ∑ j : Fin 3200, e (rowOf b c j)

/-- A block's total for label 0: the five chunk sums added onto zero, in order. -/
def part0 (e : Fin 2000000 → EReal) (T : Fin 2000000 → BitVec 32) (b : Fin 125) : EReal :=
  ((((0 + chunk0 e T b 0) + chunk0 e T b 1) + chunk0 e T b 2) + chunk0 e T b 3) + chunk0 e T b 4

/-- A block's total for the other rows: per chunk all scores less those labelled 0, added onto zero, in order. -/
def part1 (e : Fin 2000000 → EReal) (T : Fin 2000000 → BitVec 32) (b : Fin 125) : EReal :=
  ((((0 + (chunkAll e b 0 - chunk0 e T b 0)) + (chunkAll e b 1 - chunk0 e T b 1)) + (chunkAll e b 2 - chunk0 e T b 2))
    + (chunkAll e b 3 - chunk0 e T b 3)) + (chunkAll e b 4 - chunk0 e T b 4)

end Cert.SegNorm

end
-- ==== Proof.Payload.lean ====
/-
  The kernel body's arithmetic read at an index, at the extended reals: what one chunk of 3,200 rows
  contributes.
-/
import proofs.«411640_j35201551958668_3_alg».proof.Proof.Gen.KernelIdeal.Skeleton
import proofs.«411640_j35201551958668_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Hand

open Idealize.ShloMosaic Idealize.ShloMosaic.ValueIdx Cert.KernelIdeal Cert.KernelIdeal.Gen Cert.SegNorm

/-- The score of row `j` of a chunk `xc` of 3,200 rows, from the first layer's weights `w1`, its bias as a
    column `b1c`, the second layer's weights as a column `w2c` and its bias as a 1×1 block `b2c`. -/
def chunkScore (w1 : Vec Ideal S128x64 .f32) (b1c w2c : Vec Ideal S128x1 .f32) (b2c : Vec Ideal S1x1 .f32)
    (xc : Vec Ideal S3200x64 .f32) (j : Fin 3200) : EReal :=
  Ideal.exp ((∑ h : Fin 128, Ideal.tanh ((∑ d : Fin 64, xc (ix2 j d) * w1 (ix2 h d)) + b1c (ix2 h 0)) * w2c (ix2 h 0))
    + b2c (ix2 0 0))

/-! ## The product on the matrix unit, read at an index -/

theorem lhs_mm_0 (i : S128x3200.Idx) (q : dot_S128x64_S3200x64_S128x3200_1_1_0_0_n_n.contr.Idx) :
    (dot_S128x64_S3200x64_S128x3200_1_1_0_0_n_n.lhsIdx i q 0).val = (i 0).val := by
  unfold DotDims.lhsIdx
  rw [dif_neg (show ¬(0 : Fin S128x64.rank) ∈ dot_S128x64_S3200x64_S128x3200_1_1_0_0_n_n.lhsBatch by decide), dif_pos (show (0 : Fin S128x64.rank) ∈ dot_S128x64_S3200x64_S128x3200_1_1_0_0_n_n.lhsNonContracting by decide)]
  rfl
theorem lhs_mm_1 (i : S128x3200.Idx) (q : dot_S128x64_S3200x64_S128x3200_1_1_0_0_n_n.contr.Idx) :
    (dot_S128x64_S3200x64_S128x3200_1_1_0_0_n_n.lhsIdx i q 1).val = (q ⟨0, by decide⟩).val :=
  dot_S128x64_S3200x64_S128x3200_1_1_0_0_n_n.lhsIdx_val_of_single rfl i q
theorem rhs_mm_0 (i : S128x3200.Idx) (q : dot_S128x64_S3200x64_S128x3200_1_1_0_0_n_n.contr.Idx) :
    (dot_S128x64_S3200x64_S128x3200_1_1_0_0_n_n.rhsIdx i q 0).val = (i 1).val := by
  unfold DotDims.rhsIdx
  rw [dif_neg (show ¬(0 : Fin S3200x64.rank) ∈ dot_S128x64_S3200x64_S128x3200_1_1_0_0_n_n.rhsBatch by decide), dif_pos (show (0 : Fin S3200x64.rank) ∈ dot_S128x64_S3200x64_S128x3200_1_1_0_0_n_n.rhsNonContracting by decide)]
  rfl
theorem rhs_mm_1 (i : S128x3200.Idx) (q : dot_S128x64_S3200x64_S128x3200_1_1_0_0_n_n.contr.Idx) :
    (dot_S128x64_S3200x64_S128x3200_1_1_0_0_n_n.rhsIdx i q 1).val = (q ⟨0, by decide⟩).val :=
  dot_S128x64_S3200x64_S128x3200_1_1_0_0_n_n.rhsIdx_val_of_single rfl i q

/-- The product into the zero accumulator at (h, j): the sum over the 64 features of the weights' row h times the chunk's row j. -/
theorem mm_apply (a : FVec Ideal S128x64 .bf16) (b : FVec Ideal S3200x64 .bf16) (h : Fin 128) (j : Fin 3200) :
    matmul dot_S128x64_S3200x64_S128x3200_1_1_0_0_n_n none a b (constant (F := Ideal) S128x3200 .f32 0x00000000#32) (ix2 h j)
      = ∑ d : Fin 64, a (ix2 h d) * b (ix2 j d) := by
  simp only [matmul]
  rw [Ideal.matmul_constant_zero_apply, ← Equiv.sum_comp (ValueIdx.contrEquiv1 dot_S128x64_S3200x64_S128x3200_1_1_0_0_n_n 64 rfl rfl).symm]
  refine Finset.sum_congr rfl fun k _ => ?_
  have hk := ValueIdx.contrEquiv1_symm_val dot_S128x64_S3200x64_S128x3200_1_1_0_0_n_n 64 rfl rfl k
  have el : dot_S128x64_S3200x64_S128x3200_1_1_0_0_n_n.lhsIdx (ix2 h j) ((ValueIdx.contrEquiv1 dot_S128x64_S3200x64_S128x3200_1_1_0_0_n_n 64 rfl rfl).symm k) = ix2 h k := funext fun a => Fin.ext (by
    match a with
    | ⟨0, _⟩ => exact lhs_mm_0 _ _
    | ⟨1, _⟩ => exact (lhs_mm_1 _ _).trans hk)
  have er : dot_S128x64_S3200x64_S128x3200_1_1_0_0_n_n.rhsIdx (ix2 h j) ((ValueIdx.contrEquiv1 dot_S128x64_S3200x64_S128x3200_1_1_0_0_n_n 64 rfl rfl).symm k) = ix2 j k := funext fun a => Fin.ext (by
    match a with
    | ⟨0, _⟩ => exact rhs_mm_0 _ _
    | ⟨1, _⟩ => exact (rhs_mm_1 _ _).trans hk)
  rw [el, er]

/-! ## The layout operations of the body, read at coordinates -/

/-- A column [128,1] spread over 3,200 lanes reads, at (h, j), the column's entry h. -/
theorem bcast_col_apply (v : S128x1.Idx → EReal) (h : Fin 128) (j : Fin 3200) :
    broadcastTo S128x3200 v broadcasts_S128x1_S128x3200 (ix2 h j) = v (ix2 h 0) := by
  refine broadcastTo_apply v broadcasts_S128x1_S128x3200 (ix2 h j) (ix2 h 0) fun ax => ?_
  match ax with
  | ⟨0, _⟩ =>
    show h.val = if (128 : Nat) = 1 then 0 else h.val
    rw [if_neg (by decide)]
  | ⟨1, _⟩ => rfl

/-- A 1×1 block spread over 3,200 lanes reads its one entry everywhere. -/
theorem bcast_one_apply (v : S1x1.Idx → EReal) (j : Fin 3200) :
    broadcastTo S1x3200 v broadcasts_S1x1_S1x3200 (ix2 0 j) = v (ix2 0 0) := by
  refine broadcastTo_apply v broadcasts_S1x1_S1x3200 (ix2 0 j) (ix2 0 0) fun ax => ?_
  match ax with
  | ⟨0, _⟩ => rfl
  | ⟨1, _⟩ => rfl

/-- The sum over the 128 hidden units of a [128,3200] block, at lane j. -/
theorem sum_hidden_apply (v : FVec Ideal S128x3200 .f32) (hφ : FKind.Formats .f32)
    (hacc : (0x00000000#32 : BitVec 32) = FKind.add.neutral .f32 hφ) (j : Fin 3200) :
    multiReduction (F := Ideal) .add [0] S3200 v 0x00000000#32 reduces_S128x3200_S3200 hφ hacc (ix1 j)
      = ∑ h : Fin 128, v (ix2 h j) := by
  refine (Ideal.multiReduction_add_single v _ reduces_S128x3200_S3200 hφ hacc (ix1 j)).trans ?_
  refine Finset.sum_congr rfl fun h _ => congrArg v (funext fun a => Fin.ext ?_)
  match a with
  | ⟨0, _⟩ => rfl
  | ⟨1, _⟩ => rfl

/-- The sum over the 3,200 lanes of a [1,3200] row. -/
theorem sum_lanes_apply (v : FVec Ideal S1x3200 .f32) (hφ : FKind.Formats .f32)
    (hacc : (0x00000000#32 : BitVec 32) = FKind.add.neutral .f32 hφ) :
    multiReduction (F := Ideal) .add [1] S1 v 0x00000000#32 reduces_S1x3200_S1 hφ hacc (ix1 0)
      = ∑ j : Fin 3200, v (ix2 0 j) := by
  refine (Ideal.multiReduction_add_single v _ reduces_S1x3200_S1 hφ hacc (ix1 0)).trans ?_
  refine Finset.sum_congr rfl fun j _ => congrArg v (funext fun a => Fin.ext ?_)
  match a with
  | ⟨0, _⟩ => rfl
  | ⟨1, _⟩ => rfl

/-- The label-0 mask as a float: 1 on label 0, 0 elsewhere. -/
theorem mask_eq (t : BitVec 32) :
    FloatOps.sitofp (F := Ideal) .f32 ((IntOp.cmpi .eq t 0#32).setWidth 32) = ind t := by
  unfold ind
  by_cases ht : t = 0#32
  · subst ht
    rw [if_pos rfl]
    show (((((IntOp.cmpi .eq (0#32) (0#32)).setWidth 32).toInt : ℤ) : ℝ) : EReal) = 1
    have e : ((IntOp.cmpi .eq (0#32) (0#32)).setWidth 32).toInt = 1 := by decide
    rw [e]; simp
  · rw [if_neg ht]
    show (((((IntOp.cmpi .eq t (0#32)).setWidth 32).toInt : ℤ) : ℝ) : EReal) = 0
    have e : IntOp.cmpi .eq t (0#32) = 0#1 := by
      unfold IntOp.cmpi
      have : (t == 0#32) = false := by simpa using ht
      simp [this]
    rw [e]
    have e2 : ((0#1 : BitVec 1).setWidth 32).toInt = 0 := by decide
    rw [e2]; simp

/-! ## The payloads -/

theorem exp_apply' {s : Shape} {φ : FTy} (a : FVec Ideal s φ) (i : s.Idx) : exp a i = Ideal.exp (a i) := rfl
theorem tanh_apply' {s : Shape} {φ : FTy} (a : FVec Ideal s φ) (i : s.Idx) : tanh a i = Ideal.tanh (a i) := rfl

theorem pay3_apply (w1 : Vec Ideal S128x64 .f32) (b1c w2c : Vec Ideal S128x1 .f32) (b2c : Vec Ideal S1x1 .f32)
    (xc : Vec Ideal S3200x64 .f32) (j : Fin 3200) :
    k0_pay3 (F := Ideal) w1 b1c w2c b2c xc (ix2 0 j) = chunkScore w1 b1c w2c b2c xc j := by
  unfold k0_pay3 chunkScore
  simp only [exp_apply', addf_apply, shapeCast_a_1a_apply, bcast_one_apply, shapeCast_self]
  refine congrArg Ideal.exp (congrArg (· + b2c (ix2 0 0)) ?_)
  refine (sum_hidden_apply _ _ _ j).trans (Finset.sum_congr rfl fun h _ => ?_)
  simp only [mulf_apply, tanh_apply', addf_apply, bcast_col_apply]
  refine congrArg (fun z => Ideal.tanh (z + b1c (ix2 h 0)) * w2c (ix2 h 0)) ?_
  refine (mm_apply _ _ h j).trans (Finset.sum_congr rfl fun d _ => ?_)
  exact mul_comm _ _

theorem pay4_apply (w1 : Vec Ideal S128x64 .f32) (b1c w2c : Vec Ideal S128x1 .f32) (b2c : Vec Ideal S1x1 .f32)
    (xc : Vec Ideal S3200x64 .f32) (j : Fin 3200) :
    k0_pay4 (F := Ideal) w1 b1c w2c b2c xc (ix3 0 0 j) = chunkScore w1 b1c w2c b2c xc j := by
  unfold k0_pay4
  exact (shapeCast_ab_1ab_apply _ shapeCasts_S1x3200_S1x1x3200 0 0 j).trans (pay3_apply w1 b1c w2c b2c xc j)

theorem pay5_apply (w1 : Vec Ideal S128x64 .f32) (b1c w2c : Vec Ideal S128x1 .f32) (b2c : Vec Ideal S1x1 .f32)
    (xc : Vec Ideal S3200x64 .f32) (tc : Vec Ideal S1x1x3200 .i32) :
    k0_pay5 (F := Ideal) w1 b1c w2c b2c xc tc (ix2 0 0)
      = ∑ j : Fin 3200, chunkScore w1 b1c w2c b2c xc j * ind (tc (ix3 0 0 j)) := by
  unfold k0_pay5
  refine (shapeCast_a_1a_apply _ shapeCasts_S1_S1x1 0 0).trans ?_
  refine (sum_lanes_apply _ _ _).trans ?_
  refine Finset.sum_congr rfl fun j _ => ?_
  rw [mulf_apply, pay3_apply]
  refine congrArg (chunkScore w1 b1c w2c b2c xc j * ·) ?_
  show FloatOps.sitofp (F := Ideal) .f32
    ((IntOp.cmpi .eq (shapeCast S1x3200 (shapeCast S1x1x3200 tc shapeCasts_S1x1x3200_S1x1x3200) shapeCasts_S1x1x3200_S1x3200 (ix2 0 j)) 0#32).setWidth 32) = _
  rw [shapeCast_1ab_ab_apply, shapeCast_self]
  exact mask_eq _

theorem pay6_apply (w1 : Vec Ideal S128x64 .f32) (b1c w2c : Vec Ideal S128x1 .f32) (b2c : Vec Ideal S1x1 .f32)
    (a : FVec Ideal S1x1 .f32) (xc : Vec Ideal S3200x64 .f32) (tc : Vec Ideal S1x1x3200 .i32) :
    k0_pay6 (F := Ideal) w1 b1c w2c b2c a xc tc (ix2 0 0)
      = a (ix2 0 0) + ∑ j : Fin 3200, chunkScore w1 b1c w2c b2c xc j * ind (tc (ix3 0 0 j)) := by
  unfold k0_pay6
  rw [addf_apply, pay5_apply]

theorem pay7_apply (w1 : Vec Ideal S128x64 .f32) (b1c w2c : Vec Ideal S128x1 .f32) (b2c : Vec Ideal S1x1 .f32)
    (a : FVec Ideal S1x1 .f32) (xc : Vec Ideal S3200x64 .f32) (tc : Vec Ideal S1x1x3200 .i32) :
    k0_pay7 (F := Ideal) w1 b1c w2c b2c a xc tc (ix2 0 0)
      = a (ix2 0 0) + ((∑ j : Fin 3200, chunkScore w1 b1c w2c b2c xc j)
          - ∑ j : Fin 3200, chunkScore w1 b1c w2c b2c xc j * ind (tc (ix3 0 0 j))) := by
  unfold k0_pay7
  rw [addf_apply, subf_apply, pay5_apply]
  refine congrArg (fun z => a (ix2 0 0) + (z - ∑ j : Fin 3200, chunkScore w1 b1c w2c b2c xc j * ind (tc (ix3 0 0 j)))) ?_
  refine (shapeCast_a_1a_apply _ shapeCasts_S1_S1x1 0 0).trans ?_
  refine (sum_lanes_apply _ _ _).trans ?_
  exact Finset.sum_congr rfl fun j _ => pay3_apply w1 b1c w2c b2c xc j

theorem pay8_apply0 (a b : FVec Ideal S1x1 .f32) : k0_pay8 (F := Ideal) a b (ix3 0 0 0) = a (ix2 0 0) := by
  unfold k0_pay8
  refine (shapeCast_ab_1ab_apply _ shapeCasts_S1x2_S1x1x2 0 0 0).trans ?_
  exact concatenate_pair_apply_left (1 : Fin S1x2.rank) a b concatenates_S1x1_S1x1_S1x2_d1 (ix2 0 0) rfl (ix2 0 0)
    (fun c => match c with | ⟨0, _⟩ => rfl | ⟨1, _⟩ => rfl)

theorem pay8_apply1 (a b : FVec Ideal S1x1 .f32) : k0_pay8 (F := Ideal) a b (ix3 0 0 1) = b (ix2 0 0) := by
  unfold k0_pay8
  refine (shapeCast_ab_1ab_apply _ shapeCasts_S1x2_S1x1x2 0 0 1).trans ?_
  exact concatenate_pair_apply_right (1 : Fin S1x2.rank) a b concatenates_S1x1_S1x1_S1x2_d1 (ix2 0 1) rfl rfl (ix2 0 0)
    (fun c => match c with | ⟨0, _⟩ => fun _ => rfl | ⟨1, _⟩ => fun hne => absurd rfl hne) rfl

theorem pay1_apply : k0_pay1 (F := Ideal) (ix2 0 0) = 0 := by
  unfold k0_pay1
  exact Ideal.ofBits_zero_f32

theorem pay2_apply : k0_pay2 (F := Ideal) (ix2 0 0) = 0 := by
  unfold k0_pay2
  exact Ideal.ofBits_zero_f32

end Cert.KernelIdeal.Hand

end
-- ==== Proof.Arrays.lean ====
/-
  The kernel's two result arrays as functions of @main's arguments, at the extended reals.

  The first, [125, 1, 16000], holds at (b, 0, q) the score of row 16000b + q. The second, [125, 1, 2], holds at
  (b, 0, 0) block b's total for label 0 and at (b, 0, 1) its total for the other rows: the pair the body's loop
  carries over the block's five chunks, from zero.
-/
import proofs.«411640_j35201551958668_3_alg».proof.Proof.KBody
import proofs.«411640_j35201551958668_3_alg».proof.Proof.KNames
import proofs.«411640_j35201551958668_3_alg».proof.Proof.InBlocks
import proofs.«411640_j35201551958668_3_alg».proof.Proof.Payload
import proofs.«411640_j35201551958668_3_alg».proof.Proof.Spec

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegNorm

variable (m : (ℓ : Loc nD τ sig) → Buf (Elt Ideal) ℓ)

/-- The five float arguments, at their literal types. -/
abbrev xArr (c : Dev nD) : Vec Ideal S2000000x64 .f32 := m ((c : Thread nD τ).loc main_arg0)
abbrev w1Arr (c : Dev nD) : Vec Ideal S128x64 .f32 := m ((c : Thread nD τ).loc main_arg2)
abbrev b1Arr (c : Dev nD) : Vec Ideal S128 .f32 := m ((c : Thread nD τ).loc main_arg3)
abbrev w2Arr (c : Dev nD) : Vec Ideal S1x128 .f32 := m ((c : Thread nD τ).loc main_arg4)
abbrev b2Arr (c : Dev nD) : Vec Ideal S1 .f32 := m ((c : Thread nD τ).loc main_arg5)

/-- Row `n`'s score and label, from the arguments. -/
def sc (c : Dev nD) (n : Fin 2000000) : EReal := score (xArr m c) (w1Arr m c) (b1Arr m c) (w2Arr m c) (b2Arr m c) n
def lab (c : Dev nD) (n : Fin 2000000) : BitVec 32 := labelArr m c (ix1 n)

/-- The six input blocks at point `t`, at their literal types. -/
abbrev bx (c : Dev nD) (t : Fin cfg0.N) : Vec Ideal S16000x64 .f32 := iblk m c 0 t
abbrev bw1 (c : Dev nD) (t : Fin cfg0.N) : Vec Ideal S128x64 .f32 := iblk m c 1 t
abbrev bb1 (c : Dev nD) (t : Fin cfg0.N) : Vec Ideal S128x1 .f32 := iblk m c 2 t
abbrev bw2 (c : Dev nD) (t : Fin cfg0.N) : Vec Ideal S128x1 .f32 := iblk m c 3 t
abbrev bb2 (c : Dev nD) (t : Fin cfg0.N) : Vec Ideal S1x1 .f32 := iblk m c 4 t
abbrev bt (c : Dev nD) (t : Fin cfg0.N) : Vec Ideal S1x1x16000 .i32 := iblk m c 5 t

/-- A chunk's score at point `t` is the score of the row it stands for. -/
theorem chunkScore_blocks (c : Dev nD) (t : Fin cfg0.N) (k : Fin k0_t1_loop.trips) (j : Fin 3200) :
    chunkScore (bw1 m c t) (bb1 m c t) (bw2 m c t) (bb2 m c t) (xChunk (bx m c t) k) j = sc m c (rowAt t (placeIn k j)) := by
  unfold chunkScore sc score hid
  have e1 : ∀ h : Fin 128, ∀ d : Fin 64, xChunk (bx m c t) k (ix2 j d) * bw1 m c t (ix2 h d)
      = xArr m c (ix2 (rowAt t (placeIn k j)) d) * w1Arr m c (ix2 h d) := fun h d => by
    have ex : bx m c t (ix2 (placeIn k j) d) = xArr m c (ix2 (rowAt t (placeIn k j)) d) := blk_x m c t (placeIn k j) d
    have ew : bw1 m c t (ix2 h d) = w1Arr m c (ix2 h d) := blk_w1 m c t h d
    rw [xChunk_apply, ex, ew]
  have e2 : ∀ h : Fin 128, bb1 m c t (ix2 h 0) = b1Arr m c (ix1 h) := fun h => blk_b1 m c t h
  have e3 : ∀ h : Fin 128, bw2 m c t (ix2 h 0) = w2Arr m c (ix2 0 h) := fun h => blk_w2 m c t h
  have e4 : bb2 m c t (ix2 0 0) = b2Arr m c (ix1 0) := blk_b2 m c t
  simp only [e1, e2, e3, e4]

/-! ## The first result array: the scores -/

/-- What point `t` leaves at place `q` of the first output block: the score of the block's row `q`. -/
theorem out6_apply (c : Dev nD) (t : Fin cfg0.N) (q : Fin 16000) :
    (outsAt0 m c t).1 (ix3 0 0 q) = sc m c (rowAt t q) := by
  unfold outsAt0
  dsimp only
  rw [out6_eq]
  show k0_pay4 (bw1 m c t) (bb1 m c t) (bw2 m c t) (bb2 m c t) (xChunk (bx m c t) (chunkOf q)) (ix3 0 0 (inChunk q)) = _
  rw [pay4_apply, chunkScore_blocks, placeIn_chunkOf]

/-- The scores as one function of the [125, 1, 16000] index. -/
def G6 (c : Dev nD) : Vec Ideal S125x1x16000 .f32 := fun i =>
  sc m c ⟨16000 * (i 0).val + (i 2).val, by
    have h0 : (i 0).val < 125 := (i 0).isLt
    have h2 : (i 2).val < 16000 := (i 2).isLt
    omega⟩

/-- The first output's index map: block `t` along the first axis. -/
theorem idx6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)

/-- What point `t` writes back is block `t` of that function. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext y
  obtain ⟨e0, e1, e2⟩ := idx6 t
  show (outsAt0 m c t).1 y = G6 m c (((cfg0.win 6).blk t).view.emb y)
  have hy0 : (y 0).val < 1 := (y 0).isLt
  have hy2 : (y 2).val < 16000 := (y 2).isLt
  have hy : y = ix3 0 0 ⟨(y 2).val, hy2⟩ := by
    funext a
    match a with
    | ⟨0, _⟩ => exact Subsingleton.elim (α := Fin 1) _ _
    | ⟨1, _⟩ => exact Subsingleton.elim (α := Fin 1) _ _
    | ⟨2, _⟩ => rfl
  have h0 : ((((cfg0.win 6).blk t).view.emb y) 0).val = win0_6.index t 0 * 1 + 1 * (y 0).val := rfl
  have h2 : ((((cfg0.win 6).blk t).view.emb y) 2).val = win0_6.index t 2 * 16000 + 1 * (y 2).val := rfl
  conv_lhs => rw [hy]
  rw [out6_apply]
  unfold G6
  congr 1
  apply Fin.ext
  show 16000 * t.val + (y 2).val = 16000 * ((((cfg0.win 6).blk t).view.emb y) 0).val + ((((cfg0.win 6).blk t).view.emb y) 2).val
  rw [h0, h2, e0, e2]
  omega

/-- An index is in point `t`'s block iff each coordinate is in the block's range on its axis. -/
theorem mem_blk6 (t : Fin cfg0.N) (i : S125x1x16000.Idx) :
    i ∈ ((cfg0.win 6).blk t).view.set ↔ ∀ a : Fin 3, win0_6.index t a * S1x1x16000.size a ≤ (i a).val
      ∧ (i a).val < win0_6.index t a * S1x1x16000.size a + S1x1x16000.size a := by
  show i ∈ ((View.whole main_v4_0).slice (win0_6.rect t)).set ↔ _
  rw [View.set_slice_whole, Rect.mem_set_unit]
  exact Iff.rfl

/-- Every index is in the block of the point its first coordinate names. -/
theorem cover6 (i : S125x1x16000.Idx) :
    ∃ t : Fin cfg0.N, (cfg0.win 6).flush t = true ∧ i ∈ ((cfg0.win 6).blk t).view.set := by
  have hN : cfg0.N = 125 := N_0
  have h0 : (i 0).val < 125 := (i 0).isLt
  have h1 : (i 1).val < 1 := (i 1).isLt
  have h2 : (i 2).val < 16000 := (i 2).isLt
  refine ⟨⟨(i 0).val, by omega⟩, flush0_6 _, ?_⟩
  obtain ⟨e0, e1, e2⟩ := idx6 ⟨(i 0).val, by omega⟩
  rw [mem_blk6]
  intro a
  match a with
  | ⟨0, _⟩ =>
    show win0_6.index ⟨(i 0).val, _⟩ 0 * 1 ≤ (i 0).val ∧ (i 0).val < win0_6.index ⟨(i 0).val, _⟩ 0 * 1 + 1
    rw [e0]
    show (i 0).val * 1 ≤ (i 0).val ∧ (i 0).val < (i 0).val * 1 + 1
    omega
  | ⟨1, _⟩ =>
    show win0_6.index ⟨(i 0).val, _⟩ 1 * 1 ≤ (i 1).val ∧ (i 1).val < win0_6.index ⟨(i 0).val, _⟩ 1 * 1 + 1
    rw [e1]; omega
  | ⟨2, _⟩ =>
    show win0_6.index ⟨(i 0).val, _⟩ 2 * 16000 ≤ (i 2).val ∧ (i 2).val < win0_6.index ⟨(i 0).val, _⟩ 2 * 16000 + 16000
    rw [e2]; omega

/-- So after the kernel the first result array holds the scores. -/
theorem arr6_eq (c : Dev nD) : arr6 m c = G6 m c :=
  (dats m 0 c).arrAt_eq_of_cover 6 (G6 m c) (fun t _ => flushed6_eq m c t) cover6

/-! ## The second result array: the per-block label totals -/

/-- A grid point as a block number, a trip as a chunk number. -/
def blockIx (t : Fin cfg0.N) : Fin 125 := ⟨t.val, by have := t.isLt; have h : cfg0.N = 125 := N_0; omega⟩
def chunkIx (k : Fin k0_t1_loop.trips) : Fin 5 := ⟨k.val, Nat.lt_of_lt_of_le k.isLt (le_of_eq trips_eq)⟩

theorem rowAt_placeIn (t : Fin cfg0.N) (k : Fin k0_t1_loop.trips) (j : Fin 3200) :
    rowAt t (placeIn k j) = rowOf (blockIx t) (chunkIx k) j := by
  apply Fin.ext
  show 16000 * t.val + (3200 * k.val + j.val) = 16000 * t.val + 3200 * k.val + j.val
  omega

/-- A trip's two sums at point `t` are the chunk sums of Spec.lean over the rows the chunk stands for. -/
theorem chunk0_blocks (c : Dev nD) (t : Fin cfg0.N) (k : Fin k0_t1_loop.trips) :
    (∑ j : Fin 3200, chunkScore (bw1 m c t) (bb1 m c t) (bw2 m c t) (bb2 m c t) (xChunk (bx m c t) k) j
        * ind (tChunk (bt m c t) k (ix3 0 0 j)))
      = chunk0 (sc m c) (lab m c) (blockIx t) (chunkIx k) := by
  unfold chunk0
  refine Finset.sum_congr rfl fun j _ => ?_
  have et : bt m c t (ix3 0 0 (placeIn k j)) = lab m c (rowAt t (placeIn k j)) := blk_t m c t (placeIn k j)
  rw [chunkScore_blocks, tChunk_apply, et, rowAt_placeIn]

theorem chunkAll_blocks (c : Dev nD) (t : Fin cfg0.N) (k : Fin k0_t1_loop.trips) :
    (∑ j : Fin 3200, chunkScore (bw1 m c t) (bb1 m c t) (bw2 m c t) (bb2 m c t) (xChunk (bx m c t) k) j)
      = chunkAll (sc m c) (blockIx t) (chunkIx k) := by
  unfold chunkAll
  refine Finset.sum_congr rfl fun j _ => ?_
  rw [chunkScore_blocks, rowAt_placeIn]

/-- The carried pair at point `t`. -/
abbrev car (c : Dev nD) (t : Fin cfg0.N) (k : Nat) : FVec Ideal S1x1 .f32 × FVec Ideal S1x1 .f32 :=
  carried (bx m c t) (bw1 m c t) (bb1 m c t) (bw2 m c t) (bb2 m c t) (bt m c t) k

theorem car_fst_succ (c : Dev nD) (t : Fin cfg0.N) (k : Nat) (h : k < k0_t1_loop.trips) :
    (car m c t (k + 1)).1 (ix2 0 0)
      = (car m c t k).1 (ix2 0 0) + chunk0 (sc m c) (lab m c) (blockIx t) (chunkIx ⟨k, h⟩) := by
  show (carried (bx m c t) (bw1 m c t) (bb1 m c t) (bw2 m c t) (bb2 m c t) (bt m c t) (k + 1)).1 (ix2 0 0) = _
  rw [carried_succ _ _ _ _ _ _ k h]
  dsimp only
  rw [pay6_apply, chunk0_blocks]

theorem car_snd_succ (c : Dev nD) (t : Fin cfg0.N) (k : Nat) (h : k < k0_t1_loop.trips) :
    (car m c t (k + 1)).2 (ix2 0 0)
      = (car m c t k).2 (ix2 0 0)
        + (chunkAll (sc m c) (blockIx t) (chunkIx ⟨k, h⟩) - chunk0 (sc m c) (lab m c) (blockIx t) (chunkIx ⟨k, h⟩)) := by
  show (carried (bx m c t) (bw1 m c t) (bb1 m c t) (bw2 m c t) (bb2 m c t) (bt m c t) (k + 1)).2 (ix2 0 0) = _
  rw [carried_succ _ _ _ _ _ _ k h]
  dsimp only
  rw [pay7_apply, chunk0_blocks, chunkAll_blocks]

theorem lt_trips {k : Nat} (h : k < 5) : k < k0_t1_loop.trips := by rw [trips_eq]; exact h

/-- After the five trips the carried pair is the block's two totals. -/
theorem car_fst (c : Dev nD) (t : Fin cfg0.N) :
    (car m c t k0_t1_loop.trips).1 (ix2 0 0) = part0 (sc m c) (lab m c) (blockIx t) := by
  have h5 : car m c t k0_t1_loop.trips = car m c t (4 + 1) := congrArg (car m c t) trips_eq
  rw [h5, car_fst_succ m c t 4 (lt_trips (by decide)), car_fst_succ m c t 3 (lt_trips (by decide)),
    car_fst_succ m c t 2 (lt_trips (by decide)), car_fst_succ m c t 1 (lt_trips (by decide)),
    car_fst_succ m c t 0 (lt_trips (by decide))]
  show k0_pay1 (F := Ideal) (ix2 0 0) + _ + _ + _ + _ + _ = _
  rw [pay1_apply]
  rfl

theorem car_snd (c : Dev nD) (t : Fin cfg0.N) :
    (car m c t k0_t1_loop.trips).2 (ix2 0 0) = part1 (sc m c) (lab m c) (blockIx t) := by
  have h5 : car m c t k0_t1_loop.trips = car m c t (4 + 1) := congrArg (car m c t) trips_eq
  rw [h5, car_snd_succ m c t 4 (lt_trips (by decide)), car_snd_succ m c t 3 (lt_trips (by decide)),
    car_snd_succ m c t 2 (lt_trips (by decide)), car_snd_succ m c t 1 (lt_trips (by decide)),
    car_snd_succ m c t 0 (lt_trips (by decide))]
  show k0_pay2 (F := Ideal) (ix2 0 0) + _ + _ + _ + _ + _ = _
  rw [pay2_apply]
  rfl

/-- What point `t` leaves in the second output block. -/
theorem out7_apply0 (c : Dev nD) (t : Fin cfg0.N) :
    (outsAt0 m c t).2 (ix3 0 0 0) = part0 (sc m c) (lab m c) (blockIx t) := by
  unfold outsAt0
  dsimp only
  rw [out7_eq, pay8_apply0]
  exact car_fst m c t

theorem out7_apply1 (c : Dev nD) (t : Fin cfg0.N) :
    (outsAt0 m c t).2 (ix3 0 0 1) = part1 (sc m c) (lab m c) (blockIx t) := by
  unfold outsAt0
  dsimp only
  rw [out7_eq, pay8_apply1]
  exact car_snd m c t

/-- The totals as one function of the [125, 1, 2] index. -/
def G7 (c : Dev nD) : Vec Ideal S125x1x2 .f32 := fun i =>
  if (i 2).val = 0 then part0 (sc m c) (lab m c) ⟨(i 0).val, (i 0).isLt⟩
  else part1 (sc m c) (lab m c) ⟨(i 0).val, (i 0).isLt⟩

theorem idx7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)

theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  funext y
  obtain ⟨e0, e1, e2⟩ := idx7 t
  show (outsAt0 m c t).2 y = G7 m c (((cfg0.win 7).blk t).view.emb y)
  have hy0 : (y 0).val < 1 := (y 0).isLt
  have hy2 : (y 2).val < 2 := (y 2).isLt
  have hy : y = ix3 0 0 ⟨(y 2).val, hy2⟩ := by
    funext a
    match a with
    | ⟨0, _⟩ => exact Subsingleton.elim (α := Fin 1) _ _
    | ⟨1, _⟩ => exact Subsingleton.elim (α := Fin 1) _ _
    | ⟨2, _⟩ => rfl
  have h0 : ((((cfg0.win 7).blk t).view.emb y) 0).val = win0_7.index t 0 * 1 + 1 * (y 0).val := rfl
  have h2 : ((((cfg0.win 7).blk t).view.emb y) 2).val = win0_7.index t 2 * 2 + 1 * (y 2).val := rfl
  have hb : (⟨((((cfg0.win 7).blk t).view.emb y) 0).val, ((((cfg0.win 7).blk t).view.emb y) 0).isLt⟩ : Fin 125) = blockIx t := by
    apply Fin.ext
    show ((((cfg0.win 7).blk t).view.emb y) 0).val = t.val
    rw [h0, e0]; omega
  have hg : ((((cfg0.win 7).blk t).view.emb y) 2).val = (y 2).val := by rw [h2, e2]; omega
  unfold G7
  rw [hb, hg]
  by_cases hz : (y 2).val = 0
  · rw [if_pos hz]
    conv_lhs => rw [hy]
    have : (⟨(y 2).val, hy2⟩ : Fin 2) = 0 := Fin.ext hz
    rw [this]
    exact out7_apply0 m c t
  · rw [if_neg hz]
    conv_lhs => rw [hy]
    have : (⟨(y 2).val, hy2⟩ : Fin 2) = 1 := Fin.ext (by show (y 2).val = 1; omega)
    rw [this]
    exact out7_apply1 m c t

theorem mem_blk7 (t : Fin cfg0.N) (i : S125x1x2.Idx) :
    i ∈ ((cfg0.win 7).blk t).view.set ↔ ∀ a : Fin 3, win0_7.index t a * S1x1x2.size a ≤ (i a).val
      ∧ (i a).val < win0_7.index t a * S1x1x2.size a + S1x1x2.size a := by
  show i ∈ ((View.whole main_v4_1).slice (win0_7.rect t)).set ↔ _
  rw [View.set_slice_whole, Rect.mem_set_unit]
  exact Iff.rfl

theorem cover7 (i : S125x1x2.Idx) :
    ∃ t : Fin cfg0.N, (cfg0.win 7).flush t = true ∧ i ∈ ((cfg0.win 7).blk t).view.set := by
  have hN : cfg0.N = 125 := N_0
  have h0 : (i 0).val < 125 := (i 0).isLt
  have h1 : (i 1).val < 1 := (i 1).isLt
  have h2 : (i 2).val < 2 := (i 2).isLt
  refine ⟨⟨(i 0).val, by omega⟩, flush0_7 _, ?_⟩
  obtain ⟨e0, e1, e2⟩ := idx7 ⟨(i 0).val, by omega⟩
  rw [mem_blk7]
  intro a
  match a with
  | ⟨0, _⟩ =>
    show win0_7.index ⟨(i 0).val, _⟩ 0 * 1 ≤ (i 0).val ∧ (i 0).val < win0_7.index ⟨(i 0).val, _⟩ 0 * 1 + 1
    rw [e0]
    show (i 0).val * 1 ≤ (i 0).val ∧ (i 0).val < (i 0).val * 1 + 1
    omega
  | ⟨1, _⟩ =>
    show win0_7.index ⟨(i 0).val, _⟩ 1 * 1 ≤ (i 1).val ∧ (i 1).val < win0_7.index ⟨(i 0).val, _⟩ 1 * 1 + 1
    rw [e1]; omega
  | ⟨2, _⟩ =>
    show win0_7.index ⟨(i 0).val, _⟩ 2 * 2 ≤ (i 2).val ∧ (i 2).val < win0_7.index ⟨(i 0).val, _⟩ 2 * 2 + 2
    rw [e2]; omega

/-- So after the kernel the second result array holds the per-block totals. -/
theorem arr7_eq (c : Dev nD) : arr7 m c = G7 m c :=
  (dats m 0 c).arrAt_eq_of_cover 7 (G7 m c) (fun t _ => flushed7_eq m c t) cover7

end Cert.KernelIdeal.Hand

end
-- ==== Proof.Tail.lean ====
/-
  The host operations after the kernel, read at a row: the kernel's first result [125, 1, 16000] flattened to the
  2,000,000 rows is the numerator; its second result [125, 1, 2] summed over the 125 blocks onto zero gives the two
  label totals, and each row's denominator is the first where its label is 0 and the second elsewhere.
-/
import proofs.«411640_j35201551958668_3_alg».proof.Proof.Gen.KernelIdeal.Frame
import proofs.«411640_j35201551958668_3_alg».proof.Proof.KNames
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.StableHlo.Predicate

set_option maxRecDepth 16384

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The block a row lies in, and its place there. -/
def blockOf (n : Fin 2000000) : Fin 125 := ⟨n.val / 16000, by have := n.isLt; omega⟩
def placeOf (n : Fin 2000000) : Fin 16000 := ⟨n.val % 16000, Nat.mod_lt _ (by decide)⟩

/-- The two label totals: the per-block pairs summed over the 125 blocks onto zero. -/
private def totals (c : Dev nD) : FVec Ideal S2 .f32 :=
  Host.reduceAdd (F := Ideal) (shapeCast S125x2 (arr7 m c) shapeCasts_S125x1x2_S125x2)
    (constant (F := Ideal) S_ .f32 0x00000000#32) reducesTo_S125x2_S2_d0 h_S_

/-- The host operations composed: the flattened scores divided, row by row, by the first total where the row's label
    is 0 and by the second elsewhere. -/
private theorem result_eq (c : Dev nD) :
    resultArr m c =
      Host.divf (F := Ideal) (shapeCast S2000000 (arr6 m c) shapeCasts_S125x1x16000_S2000000)
        (select (cmpi .eq (labelArr m c) (broadcastInDim S2000000 ![] bcast_S_S2000000 (constantI S_ 32 0#32)))
          (broadcastInDim S2000000 ![] bcast_S_S2000000 (shapeCast S_ (extractStridedSlice S1 ![0] (totals m c) slices_S2_S1_0) shapeCasts_S1_S_))
          (broadcastInDim S2000000 ![] bcast_S_S2000000 (shapeCast S_ (extractStridedSlice S1 ![1] (totals m c) slices_S2_S1_1) shapeCasts_S1_S_))) := by
  unfold resultArr
  unfold Pipeline.afterTail₀
  simp only [hostOps1, hostOps1_1, hostOps1_2, List.flatten_cons, List.flatten_nil, List.append_nil, List.cons_append, List.nil_append]
  after_results
  have h6 : Pipeline.withArrays (cfgs 0).spec c (V0 m c) (fun w => (dats m 0 c).arrAt w (cfgs 0).N) (Proc.devRef .tc main_v4_0) = arr6 m c :=
    Pipeline.withArrays_arr spec0 launch0.win.arr_inj c (V0 m c) (fun w => (dats m 0 c).arrAt w cfg0.N) 6
  have h7 : Pipeline.withArrays (cfgs 0).spec c (V0 m c) (fun w => (dats m 0 c).arrAt w (cfgs 0).N) (Proc.devRef .tc main_v4_1) = arr7 m c :=
    Pipeline.withArrays_arr spec0 launch0.win.arr_inj c (V0 m c) (fun w => (dats m 0 c).arrAt w cfg0.N) 7
  have hl : Pipeline.withArrays (cfgs 0).spec c (V0 m c) (fun w => (dats m 0 c).arrAt w (cfgs 0).N) (Proc.devRef .tc main_arg1) = labelArr m c :=
    (Pipeline.withArrays_of_ne spec0 c (V0 m c) _ main_arg1 (by exact (by decide : ∀ w, Pipeline.arrRef spec0 w ≠ main_arg1))).trans (V_main_arg1 m c)
  rw [h6, h7, hl]
  rfl

/-- A label total is zero plus the sum of the blocks' entries. -/
private theorem totals_apply (c : Dev nD) (k : Fin 2) :
    totals m c (ix1 k) = 0 + ∑ b : Fin 125, arr7 m c (ix3 b 0 k) := by
  unfold totals
  simp only [Host.reduceAdd]
  have hR : S125x2.Reduces [0] S2 := by decide
  refine (Ideal.hostReduceAdd_single reducesTo_S125x2_S2_d0 hR _ _ (ix1 k)).trans ?_
  refine congrArg₂ (· + ·) Ideal.ofBits_zero_f32 ?_
  refine Finset.sum_congr rfl fun b _ => ?_
  refine shapeCast_apply _ _ _ (ix3 b 0 k) ?_
  rw [Shape.rowMajor_val_three, Shape.rowMajor_val_two]
  show ((b.val * 1 + 0) * 2 + k.val) = b.val * 2 + k.val
  omega

theorem tail_apply (c : Dev nD) (n : Fin 2000000) :
    resultArr m c (ix1 n)
      = Ideal.div (arr6 m c (ix3 (blockOf n) 0 (placeOf n)))
          (if labelArr m c (ix1 n) = 0#32
            then 0 + ∑ b : Fin 125, arr7 m c (ix3 b 0 0)
            else 0 + ∑ b : Fin 125, arr7 m c (ix3 b 0 1)) := by
  rw [result_eq m c]
  have hnum : shapeCast S2000000 (arr6 m c) shapeCasts_S125x1x16000_S2000000 (ix1 n)
      = arr6 m c (ix3 (blockOf n) 0 (placeOf n)) := by
    refine shapeCast_apply _ _ _ _ ?_
    rw [Shape.rowMajor_val_three, Shape.rowMajor_val_one]
    show (((n.val / 16000) * 1 + 0) * 16000 + n.val % 16000) = n.val
    omega
  have hs0 : shapeCast S_ (extractStridedSlice S1 ![0] (totals m c) slices_S2_S1_0) shapeCasts_S1_S_ (Shape.Idx.first h_S_)
      = totals m c (ix1 0) := by
    refine (shapeCast_apply _ shapeCasts_S1_S_ _ (ix1 0) ?_).trans ?_
    · rw [Shape.rowMajor_val_one]; exact (Shape.rowMajorPi_zero _ _).symm
    · exact extractStridedSlice_apply _ _ _ _ _ (fun a => by match a with | ⟨0, _⟩ => rfl)
  have hs1 : shapeCast S_ (extractStridedSlice S1 ![1] (totals m c) slices_S2_S1_1) shapeCasts_S1_S_ (Shape.Idx.first h_S_)
      = totals m c (ix1 1) := by
    refine (shapeCast_apply _ shapeCasts_S1_S_ _ (ix1 0) ?_).trans ?_
    · rw [Shape.rowMajor_val_one]; exact (Shape.rowMajorPi_zero _ _).symm
    · exact extractStridedSlice_apply _ _ _ _ _ (fun a => by match a with | ⟨0, _⟩ => rfl)
  show Ideal.div (shapeCast S2000000 (arr6 m c) shapeCasts_S125x1x16000_S2000000 (ix1 n))
      (Scalar.select (IntOp.cmpi .eq (labelArr m c (ix1 n)) 0#32)
        (shapeCast S_ (extractStridedSlice S1 ![0] (totals m c) slices_S2_S1_0) shapeCasts_S1_S_ (Shape.Idx.first h_S_))
        (shapeCast S_ (extractStridedSlice S1 ![1] (totals m c) slices_S2_S1_1) shapeCasts_S1_S_ (Shape.Idx.first h_S_))) = _
  rw [hnum, hs0, hs1, totals_apply, totals_apply]
  by_cases h : labelArr m c (ix1 n) = 0#32
  · rw [if_pos h, StableHlo.Predicate.cmpi_eq_iff.mpr h, select_one]
  · rw [if_neg h, eq_zero_of_ne_one (fun e => h (StableHlo.Predicate.cmpi_eq_iff.mp e)), select_zero]

end Cert.KernelIdeal.Hand

end
-- ==== Proof.Law.lean ====
/-
  The two identities that join the kernel's grouping of the label sums to the plain label sums, and the
  fact that a score is a real number whenever the second layer's weights and bias are.
-/
import proofs.«411640_j35201551958668_3_alg».proof.Proof.Spec

noncomputable section

open scoped BigOperators

namespace Cert.SegNorm

open Idealize.ShloMosaic Idealize.ShloMosaic.ValueIdx

/-! ## Auxiliary facts -/

/-- A finite sum of reals, read in the extended reals, is the real sum read there. -/
theorem coe_sum_real {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The hyperbolic tangent of any extended real is a real: it is -1 and 1 at the two infinities. -/
theorem tanh_real (y : EReal) : ∃ r : ℝ, Ideal.tanh y = (r : EReal) := by
  induction y using EReal.rec with
  | bot =>
    refine ⟨-1, ?_⟩
    show (-1 : EReal) = ((-1 : ℝ) : EReal)
    rw [EReal.coe_neg, EReal.coe_one]
  | coe r => exact ⟨Real.tanh r, rfl⟩
  | top =>
    refine ⟨1, ?_⟩
    show (1 : EReal) = ((1 : ℝ) : EReal)
    rw [EReal.coe_one]

/-- The rows are exactly the triples (block, chunk, row in chunk): division with remainder by 16000 and 3200. -/
def rowEquiv : Fin 125 × Fin 5 × Fin 3200 ≃ Fin 2000000 where
  toFun p := rowOf p.1 p.2.1 p.2.2
  invFun n :=
    (⟨n.val / 16000, by have := n.isLt; omega⟩, ⟨n.val % 16000 / 3200, by have := n.isLt; omega⟩,
      ⟨n.val % 3200, by have := n.isLt; omega⟩)
  left_inv := by
    rintro ⟨b, c, j⟩
    have hb := b.isLt
    have hc := c.isLt
    have hj := j.isLt
    refine Prod.ext ?_ (Prod.ext ?_ ?_)
    · apply Fin.ext
      show (16000 * b.val + 3200 * c.val + j.val) / 16000 = b.val
      omega
    · apply Fin.ext
      show (16000 * b.val + 3200 * c.val + j.val) % 16000 / 3200 = c.val
      omega
    · apply Fin.ext
      show (16000 * b.val + 3200 * c.val + j.val) % 3200 = j.val
      omega
  right_inv := by
    intro n
    have hn := n.isLt
    apply Fin.ext
    show 16000 * (n.val / 16000) + 3200 * (n.val % 16000 / 3200) + n.val % 3200 = n.val
    omega

/-- Summing over blocks, chunks and rows in a chunk is summing over all rows. -/
theorem sum_rows {M : Type} [AddCommMonoid M] (g : Fin 2000000 → M) :
    ∑ b : Fin 125, ∑ c : Fin 5, ∑ j : Fin 3200, g (rowOf b c j) = ∑ n : Fin 2000000, g n := by
  rw [← Fintype.sum_equiv rowEquiv (fun p => g (rowOf p.1 p.2.1 p.2.2)) g (fun _ => rfl)]
  rw [Fintype.sum_prod_type]
  refine Finset.sum_congr rfl fun b _ => ?_
  rw [Fintype.sum_prod_type]

/-- A block's total for label 0 is the sum of its five chunk sums. -/
theorem part0_eq (e : Fin 2000000 → EReal) (T : Fin 2000000 → BitVec 32) (b : Fin 125) :
    part0 e T b = ∑ c : Fin 5, chunk0 e T b c := by
  rw [Fin.sum_univ_five]
  simp only [part0, zero_add]

/-- A block's total for the other rows is the sum of its five chunk differences. -/
theorem part1_eq (e : Fin 2000000 → EReal) (T : Fin 2000000 → BitVec 32) (b : Fin 125) :
    part1 e T b = ∑ c : Fin 5, (chunkAll e b c - chunk0 e T b c) := by
  rw [Fin.sum_univ_five]
  simp only [part1, zero_add]

/-! ## The three laws -/

/-- A score is a real number as soon as the second layer's weights and bias are: tanh is real on every extended
    real, so the second affine form is a real, and the exponential of a real is a real. -/
theorem score_real (x : SX.Idx → EReal) (W1 : SW1.Idx → EReal) (b1 : SB1.Idx → EReal) (W2 : SW2.Idx → EReal)
    (b2 : SB2.Idx → EReal) (hW2 : ∀ i, ∃ r : ℝ, W2 i = (r : EReal)) (hb2 : ∀ i, ∃ r : ℝ, b2 i = (r : EReal))
    (n : Fin 2000000) : ∃ r : ℝ, score x W1 b1 W2 b2 n = (r : EReal) := by
  choose w hw using hW2
  choose c hc using hb2
  have ht : ∀ h : Fin 128, ∃ r : ℝ, hid x W1 b1 n h = (r : EReal) := fun h => tanh_real _
  choose t ht using ht
  refine ⟨Real.exp ((∑ h : Fin 128, t h * w (ix2 0 h)) + c (ix1 0)), ?_⟩
  have harg : (∑ h : Fin 128, hid x W1 b1 n h * W2 (ix2 0 h)) + b2 (ix1 0)
      = (((∑ h : Fin 128, t h * w (ix2 0 h)) + c (ix1 0) : ℝ) : EReal) := by
    rw [EReal.coe_add, ← coe_sum_real, hc]
    congr 1
    refine Finset.sum_congr rfl fun h _ => ?_
    rw [ht, hw, EReal.coe_mul]
  unfold score
  rw [harg]
  rfl

/-- The block totals for label 0, added onto zero, are the sum of `e` over the rows labelled 0. -/
theorem sum_part0 (e : Fin 2000000 → EReal) (T : Fin 2000000 → BitVec 32) :
    0 + ∑ b : Fin 125, part0 e T b = groupSum T e 0#32 := by
  rw [zero_add]
  simp only [part0_eq, chunk0]
  rw [sum_rows (fun n => e n * ind (T n))]
  unfold groupSum
  rw [Finset.sum_filter]
  refine Finset.sum_congr rfl fun n _ => ?_
  unfold ind
  by_cases h : T n = 0#32
  · rw [if_pos h, if_pos h, mul_one]
  · rw [if_neg h, if_neg h, mul_zero]

/-- When every `e k` is a real and every label is 0 or 1, the block totals of "all less label 0", added onto
    zero, are the sum of `e` over the rows labelled 1. -/
theorem sum_part1 (e : Fin 2000000 → EReal) (T : Fin 2000000 → BitVec 32)
    (he : ∀ k, ∃ r : ℝ, e k = (r : EReal)) (hT : ∀ k, T k = 0#32 ∨ T k = 1#32) :
    0 + ∑ b : Fin 125, part1 e T b = groupSum T e 1#32 := by
  choose r hr using he
  have hind : ∀ t : BitVec 32, ind t = (((if t = 0#32 then 1 else 0 : ℝ)) : EReal) := by
    intro t
    unfold ind
    by_cases h : t = 0#32
    · rw [if_pos h, if_pos h, EReal.coe_one]
    · rw [if_neg h, if_neg h, EReal.coe_zero]
  have hchunk : ∀ (b : Fin 125) (c : Fin 5), chunkAll e b c - chunk0 e T b c
      = ∑ j : Fin 3200, (fun n => if T n = 1#32 then e n else 0) (rowOf b c j) := by
    intro b c
    have hall : chunkAll e b c = ((∑ j : Fin 3200, r (rowOf b c j) : ℝ) : EReal) := by
      unfold chunkAll
      rw [← coe_sum_real]
      exact Finset.sum_congr rfl fun j _ => hr _
    have hzero : chunk0 e T b c
        = ((∑ j : Fin 3200, r (rowOf b c j) * (if T (rowOf b c j) = 0#32 then 1 else 0 : ℝ) : ℝ) : EReal) := by
      unfold chunk0
      rw [← coe_sum_real]
      refine Finset.sum_congr rfl fun j _ => ?_
      rw [hr, hind, EReal.coe_mul]
    rw [hall, hzero, ← EReal.coe_sub, ← Finset.sum_sub_distrib, ← coe_sum_real]
    refine Finset.sum_congr rfl fun j _ => ?_
    show _ = if T (rowOf b c j) = 1#32 then e (rowOf b c j) else 0
    rcases hT (rowOf b c j) with h0 | h1
    · have hne : ¬ (T (rowOf b c j) = 1#32) := by rw [h0]; decide
      rw [if_pos h0, if_neg hne, mul_one, sub_self, EReal.coe_zero]
    · have hne : ¬ (T (rowOf b c j) = 0#32) := by rw [h1]; decide
      rw [if_neg hne, if_pos h1, mul_zero, sub_zero, hr]
  rw [zero_add]
  simp only [part1_eq, hchunk]
  rw [sum_rows (fun n => if T n = 1#32 then e n else 0)]
  unfold groupSum
  rw [Finset.sum_filter]

end Cert.SegNorm

end
-- ==== Proof.KernelValue.lean ====
/-
  The kernel program's result. With every label 0 or 1 and the second layer's weights and bias real, the array
  @main returns is the result function of Spec.lean of the arguments: its numerator is the score array, and its
  two label totals — the per-block totals summed over the blocks onto zero — are the sums of the scores over the
  rows labelled 0 and over the rows labelled 1.
-/
import proofs.«411640_j35201551958668_3_alg».proof.Proof.Arrays
import proofs.«411640_j35201551958668_3_alg».proof.Proof.Tail
import proofs.«411640_j35201551958668_3_alg».proof.Proof.Law

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegNorm

variable (m : (ℓ : Loc nD τ sig) → Buf (Elt Ideal) ℓ) (ρ : Dev nD → PrngReg)

/-- The kernel program's result array is the result function of the arguments. -/
theorem result_eq (c : Dev nD)
    (hT : ∀ i, labelArr m c i = 0#32 ∨ labelArr m c i = 1#32)
    (hW2 : ∀ i, ∃ r : ℝ, w2Arr m c i = (r : EReal)) (hb2 : ∀ i, ∃ r : ℝ, b2Arr m c i = (r : EReal)) :
    resultArr m c = out (xArr m c) (labelArr m c) (w1Arr m c) (b1Arr m c) (w2Arr m c) (b2Arr m c) := by
  funext i
  obtain ⟨n, rfl⟩ : ∃ n : Fin 2000000, i = ix1 n := ⟨⟨(i 0).val, (i 0).isLt⟩, eq_ix1 i⟩
  rw [tail_apply, arr6_eq, arr7_eq]
  have hnum : G6 m c (ix3 (blockOf n) 0 (placeOf n)) = sc m c n := by
    unfold G6
    congr 1
    apply Fin.ext
    show 16000 * (n.val / 16000) + n.val % 16000 = n.val
    omega
  have hp0 : ∀ b : Fin 125, G7 m c (ix3 b 0 0) = part0 (sc m c) (lab m c) b := fun b => by
    unfold G7; exact if_pos rfl
  have hp1 : ∀ b : Fin 125, G7 m c (ix3 b 0 1) = part1 (sc m c) (lab m c) b := fun b => by
    unfold G7; exact if_neg Nat.one_ne_zero
  have hreal : ∀ k, ∃ r : ℝ, sc m c k = (r : EReal) := fun k =>
    score_real (xArr m c) (w1Arr m c) (b1Arr m c) (w2Arr m c) (b2Arr m c) hW2 hb2 k
  have hlab : ∀ k, lab m c k = 0#32 ∨ lab m c k = 1#32 := fun k => hT (ix1 k)
  have hs0 : (0 + ∑ b : Fin 125, G7 m c (ix3 b 0 0)) = groupSum (lab m c) (sc m c) 0#32 := by
    simp only [hp0]; exact sum_part0 _ _
  have hs1 : (0 + ∑ b : Fin 125, G7 m c (ix3 b 0 1)) = groupSum (lab m c) (sc m c) 1#32 := by
    simp only [hp1]; exact sum_part1 _ _ hreal hlab
  rw [hnum, hs0, hs1]
  unfold out
  rcases hT (ix1 n) with h0 | h1
  · rw [if_pos h0, h0]; rfl
  · rw [if_neg (by rw [h1]; decide), h1]; rfl

/-- The kernel program's run, read: every weakly fair execution ends with the result array at `resultArr` and
    the six arguments as they were. -/
theorem run : θ_run defs (onTc (τ := τ) (main (F := Ideal))) ⟨m, fun _ => 0, ρ⟩ (fun r => ∀ c : Dev nD,
      r.2.mem ((c.tc : Thread nD τ).loc main_v15) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c).2 main_v15 (Pipeline.mem_restRefs_of main_v15 (by decide) (by decide)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Hand

end
-- ==== Proof.RefValue.lean ====
/-
  The reference's result, read one operation at a time, is the result function of Spec.lean whenever every
  label is 0 or 1.
-/
import proofs.«411640_j35201551958668_3_alg».proof.Proof.Gen.ReferenceIdeal.Read
import proofs.«411640_j35201551958668_3_alg».proof.Proof.Spec
import Idealize.ShloMosaic.Lib.StableHlo.Predicate

noncomputable section

open scoped BigOperators

namespace Cert.ReferenceIdeal.RefValue

open Idealize.ShloMosaic Idealize.ShloMosaic.ValueIdx Cert.ReferenceIdeal Cert.ReferenceIdeal.Gen Cert.SegNorm

/-- The numerator: the reference's exponential stage at a row is that row's score. -/
theorem num_eq (x0 : (⟨S2000000x64, .f32⟩ : BufTy).Contents (Elt Ideal))
    (x2 : (⟨S128x64, .f32⟩ : BufTy).Contents (Elt Ideal)) (x3 : (⟨S128, .f32⟩ : BufTy).Contents (Elt Ideal))
    (x4 : (⟨S1x128, .f32⟩ : BufTy).Contents (Elt Ideal)) (x5 : (⟨S1, .f32⟩ : BufTy).Contents (Elt Ideal))
    (i : S2000000.Idx) :
    Cert.ReferenceIdeal.Read.val_main_v12 (F := Ideal) x0 x2 x3 x4 x5 i
      = score x0 x2 x3 x4 x5 ⟨(i 0).val, (i 0).isLt⟩ := by
  rw [Read.val_main_v12_apply, Read.val_main_v11_apply, Read.val_main_v10_apply, Read.val_main_v7_apply,
    Read.val_main_v9_apply, Read.val_main_v8_apply]
  unfold score hid
  simp only [Ideal.addf_def, Ideal.hostUnary_exp_def]
  have e5 : Read.idx_main_v8 (Read.idx_main_v9 (Read.idx_main_v11 i)) = ix1 (0 : Fin 1) :=
    funext fun a => Fin.ext (by match a with | ⟨0, _⟩ => rfl)
  rw [e5]
  refine congrArg Ideal.exp (congrArg (· + x5 (ix1 0)) (Finset.sum_congr rfl fun h _ => ?_))
  rw [Read.val_main_v5_apply, Read.val_main_v4_apply, Read.val_main_v1_apply, Read.val_main_v3_apply,
    Read.val_main_v2_apply, Read.val_main_v6_apply]
  simp only [Ideal.addf_def, Ideal.hostUnary_tanh_def]
  have e6 : Read.idx_main_v6 (Read.ridx_main_v7 (Read.idx_main_v11 i) h) = ix2 (0 : Fin 1) h :=
    funext fun a => Fin.ext (by match a with | ⟨0, _⟩ => rfl | ⟨1, _⟩ => rfl)
  have e3 : Read.idx_main_v2 (Read.idx_main_v3 (Read.lidx_main_v7 (Read.idx_main_v11 i) h)) = ix1 h :=
    funext fun a => Fin.ext (by match a with | ⟨0, _⟩ => rfl)
  rw [e6, e3]
  refine congrArg (fun t => Ideal.tanh (t + x3 (ix1 h)) * x4 (ix2 0 h)) (Finset.sum_congr rfl fun d _ => ?_)
  rw [Read.val_main_v0_apply]
  have e0 : Read.lidx_main_v1 (Read.lidx_main_v7 (Read.idx_main_v11 i) h) d = ix2 ⟨(i 0).val, (i 0).isLt⟩ d :=
    funext fun a => Fin.ext (by match a with | ⟨0, _⟩ => exact Nat.div_one _ | ⟨1, _⟩ => rfl)
  have e2 : Read.idx_main_v0 (Read.ridx_main_v1 (Read.lidx_main_v7 (Read.idx_main_v11 i) h) d) = ix2 h d :=
    funext fun a => Fin.ext (by match a with | ⟨0, _⟩ => rfl | ⟨1, _⟩ => rfl)
  rw [e0, e2]
  rfl

/-! ## The scatter: which updates land at an element -/

/-- The scatter's window start on the operand's one axis: the label word of the update's row, read signed. -/
theorem scatter_start (j : S2000000.Idx) (idx : IVec S2000000x1 32) :
    scatter_S2_S2000000x1_S2000000_n_0_0_1.start j idx 0 = (idx (ix2 (j 0) 0)).toInt := by
  unfold ScatterDims.start
  rw [dif_pos (show (0 : Fin S2.rank) ∈ scatter_S2_S2000000x1_S2000000_n_0_0_1.scatterDimsToOperandDims from
    List.mem_singleton.mpr rfl)]
  have hsi : scatter_S2_S2000000x1_S2000000_n_0_0_1.siIdx j
      ⟨List.idxOf (0 : Fin S2.rank) scatter_S2_S2000000x1_S2000000_n_0_0_1.scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: the window coordinate on it is zero. -/
theorem scatter_window (j : S2000000.Idx) :
    scatter_S2_S2000000x1_S2000000_n_0_0_1.window j 0 = 0 := by
  unfold ScatterDims.window
  rw [dif_neg (by decide)]

/-- An update lands at element `i` exactly when its row's label word, read signed, is `i`'s coordinate:
    the start is not clamped, and an update whose start leaves the operand is dropped. -/
theorem scatter_resultIdx (j : S2000000.Idx) (idx : IVec S2000000x1 32) (i : S2.Idx) :
    scatter_S2_S2000000x1_S2000000_n_0_0_1.resultIdx? j idx = some i
      ↔ (idx (ix2 (j 0) 0)).toInt = ((i 0).val : ℤ) := by
  have hi : (i 0).val < 2 := (i 0).isLt
  have hsw : ∀ a : Fin S2.rank, scatter_S2_S2000000x1_S2000000_n_0_0_1.start j idx a
      + (scatter_S2_S2000000x1_S2000000_n_0_0_1.window j a : ℤ) = (idx (ix2 (j 0) 0)).toInt := by
    intro a
    obtain rfl : a = 0 := Subsingleton.elim _ _
    rw [scatter_start, scatter_window]; simp
  unfold ScatterDims.resultIdx?
  constructor
  · intro h
    split at h
    · rename_i hb
      have h0 := congrFun (Option.some.inj h) 0
      have h1 := congrArg Fin.val h0
      simp only [hsw] at h1
      have := (hb 0).1
      rw [hsw] at this
      omega
    · exact absurd h (by simp)
  · intro h
    have hb : ∀ a, 0 ≤ scatter_S2_S2000000x1_S2000000_n_0_0_1.start j idx a
        + (scatter_S2_S2000000x1_S2000000_n_0_0_1.window j a : ℤ) ∧
        scatter_S2_S2000000x1_S2000000_n_0_0_1.start j idx a
        + (scatter_S2_S2000000x1_S2000000_n_0_0_1.window j a : ℤ) < S2.size a := by
      intro a
      obtain rfl : a = 0 := Subsingleton.elim _ _
      rw [hsw, h]
      constructor
      · omega
      · show ((i 0).val : ℤ) < (2 : ℕ)
        omega
    rw [dif_pos hb]
    congr 1
    funext a
    obtain rfl : a = 0 := Subsingleton.elim _ _
    refine Fin.ext ?_
    show (scatter_S2_S2000000x1_S2000000_n_0_0_1.start j idx 0
        + (scatter_S2_S2000000x1_S2000000_n_0_0_1.window j 0 : ℤ)).toNat = (i 0).val
    rw [hsw, h]; simp

/-- The accumulating scatter at the extended reals: the operand's element plus the updates that land on it. -/
theorem scatterAdd_apply (z : FVec Ideal S2 .f32) (idx : IVec S2000000x1 32) (upd : FVec Ideal S2000000 .f32)
    (i : S2.Idx) :
    Host.scatterAdd (F := Ideal) scatter_S2_S2000000x1_S2000000_n_0_0_1 z idx upd i
      = (z i : EReal) + ∑ j ∈ Finset.univ.filter
          (fun j => scatter_S2_S2000000x1_S2000000_n_0_0_1.resultIdx? j idx = some i), (upd j : EReal) := rfl

/-- The updates that land at element `i`, reindexed by their rows: the rows whose label word, read signed, is
    `i`'s coordinate. -/
theorem scatter_sum (T : S2000000.Idx → BitVec 32) (idx : IVec S2000000x1 32) (upd : S2000000.Idx → EReal)
    (e : Fin 2000000 → EReal) (hidx : ∀ k : Fin 2000000, idx (ix2 k 0) = T (ix1 k))
    (hupd : ∀ j : S2000000.Idx, upd j = e (j 0)) (i : S2.Idx) :
    ∑ j ∈ Finset.univ.filter (fun j => scatter_S2_S2000000x1_S2000000_n_0_0_1.resultIdx? j idx = some i), upd j
      = ∑ k ∈ Finset.univ.filter (fun k : Fin 2000000 => (T (ix1 k)).toInt = ((i 0).val : ℤ)), e k := by
  refine Finset.sum_bij' (fun j _ => (j 0 : Fin 2000000)) (fun k _ => ix1 k) ?_ ?_ ?_ ?_ ?_
  · intro j hj
    have h := (scatter_resultIdx j idx i).1 (Finset.mem_filter.1 hj).2
    exact Finset.mem_filter.2 ⟨Finset.mem_univ _, (congrArg BitVec.toInt (hidx (j 0))).symm.trans h⟩
  · intro k hk
    have h := (Finset.mem_filter.1 hk).2
    exact Finset.mem_filter.2 ⟨Finset.mem_univ _,
      (scatter_resultIdx (ix1 k) idx i).2 ((congrArg BitVec.toInt (hidx k)).trans h)⟩
  · intro j _
    exact (eq_ix1 j).symm
  · intro k _
    rfl
  · intro j _
    exact hupd j

/-- The segment sums: element `i` of the scatter's result is the sum of the scores of the rows whose label
    word, read signed, is `i`'s coordinate. -/
theorem v15_eq (x0 : (⟨S2000000x64, .f32⟩ : BufTy).Contents (Elt Ideal)) (x1 : (⟨S2000000, .i32⟩ : BufTy).Contents (Elt Ideal))
    (x2 : (⟨S128x64, .f32⟩ : BufTy).Contents (Elt Ideal)) (x3 : (⟨S128, .f32⟩ : BufTy).Contents (Elt Ideal))
    (x4 : (⟨S1x128, .f32⟩ : BufTy).Contents (Elt Ideal)) (x5 : (⟨S1, .f32⟩ : BufTy).Contents (Elt Ideal))
    (i : S2.Idx) :
    Cert.ReferenceIdeal.Read.val_main_v15 (F := Ideal) x0 x1 x2 x3 x4 x5 i
      = ∑ k ∈ Finset.univ.filter (fun k : Fin 2000000 => (x1 (ix1 k)).toInt = ((i 0).val : ℤ)),
          score x0 x2 x3 x4 x5 k := by
  unfold Read.val_main_v15
  refine (scatterAdd_apply _ _ _ i).trans ?_
  rw [Read.val_main_v13_apply, Read.val_main_cst_apply]
  have hz : (FloatOps.ofBits (F := Ideal) .f32 0x00000000#32 : EReal) = 0 := Ideal.ofBits_zero_f32
  rw [hz, zero_add]
  exact scatter_sum x1 _ _ (score x0 x2 x3 x4 x5)
    (fun k => (Read.val_main_v14_apply x1 (ix2 k 0)).trans
      (congrArg x1 (funext fun a => Fin.ext (by match a with | ⟨0, _⟩ => rfl))))
    (fun j => num_eq x0 x2 x3 x4 x5 j) i

/-! ## The gather and the label words -/

/-- A label 0 or 1 is not negative: the wrap of negative indices leaves it alone. -/
theorem wrap_eq (t : BitVec 32) (ht : t = 0#32 ∨ t = 1#32) :
    Scalar.select (IntOp.cmpi .slt t 0#32) (IntOp.addi t 2#32) t = t := by
  rcases ht with rfl | rfl <;> decide

/-- A label 0 or 1, read signed and clamped into the two-element table, is itself. -/
theorem clamp_eq (t : BitVec 32) (ht : t = 0#32 ∨ t = 1#32) :
    ((min t.toInt.toNat (2 - 1) : ℕ) : ℤ) = t.toInt := by
  rcases ht with rfl | rfl <;> decide

/-- The take: position `i` of the gather's result is the table at the start word of row `i`, read signed and
    clamped into the table. -/
theorem gather_apply (tbl : S2.Idx → EReal) (idx : IVec S2000000x1 32) (i : S2000000.Idx) :
    Host.gather gather_S2_S2000000x1_S2000000_n_0_n_n_0_1_1 tbl idx i
      = tbl (ix1 ⟨min (idx (ix2 (i 0) 0)).toInt.toNat (2 - 1), by omega⟩) := by
  have h := StableHlo.Predicate.gather_take gather_S2_S2000000x1_S2000000_n_0_n_n_0_1_1 rfl rfl rfl rfl tbl idx
    (i 0) (by decide)
  have e1 : (Shape.Idx.ofFin (i 0) : S2000000.Idx) = i := (Shape.Idx.eq_ofFin i).symm
  have e2 : (StableHlo.Predicate.ixP (i 0) : S2000000x1.Idx) = ix2 (i 0) 0 :=
    funext fun a => Fin.ext (by match a with | ⟨0, _⟩ => rfl | ⟨1, _⟩ => rfl)
  rw [e1] at h
  rw [h]
  congr 1
  funext a
  obtain rfl : a = 0 := Subsingleton.elim _ _
  refine Fin.ext ?_
  show min (idx (StableHlo.Predicate.ixP (i 0))).toInt.toNat (2 - 1) = min (idx (ix2 (i 0) 0)).toInt.toNat (2 - 1)
  rw [e2]
  rfl

/-- The denominator: the gathered segment sum at a row is the sum of the scores of the rows with its label. -/
theorem v22_eq (x0 : (⟨S2000000x64, .f32⟩ : BufTy).Contents (Elt Ideal)) (x1 : (⟨S2000000, .i32⟩ : BufTy).Contents (Elt Ideal))
    (x2 : (⟨S128x64, .f32⟩ : BufTy).Contents (Elt Ideal)) (x3 : (⟨S128, .f32⟩ : BufTy).Contents (Elt Ideal))
    (x4 : (⟨S1x128, .f32⟩ : BufTy).Contents (Elt Ideal)) (x5 : (⟨S1, .f32⟩ : BufTy).Contents (Elt Ideal))
    (hT : ∀ i, x1 i = 0#32 ∨ x1 i = 1#32) (i : S2000000.Idx) :
    Cert.ReferenceIdeal.Read.val_main_v22 (F := Ideal) x0 x1 x2 x3 x4 x5 i
      = groupSum (fun k => x1 (ix1 k)) (score x0 x2 x3 x4 x5) (x1 i) := by
  unfold Read.val_main_v22
  refine (gather_apply _ _ i).trans ?_
  rw [v15_eq]
  have hidx : Read.val_main_v21 (F := Ideal) x1 (ix2 (i 0) 0) = x1 i := by
    rw [Read.val_main_v21_apply, Read.val_main_v20_apply, Read.val_main_v17_apply, Read.val_main_v19_apply,
      Read.val_main_v16_apply, Read.val_main_c_apply, Read.val_main_v18_apply, Read.val_main_c_0_apply]
    have e : Read.idx_main_v21 (ix2 (i 0) 0) = i :=
      funext fun a => Fin.ext (by match a with | ⟨0, _⟩ => rfl)
    rw [e]
    exact wrap_eq _ (hT i)
  unfold groupSum
  refine Finset.sum_congr (Finset.filter_congr fun k _ => ?_) fun _ _ => rfl
  show (x1 (ix1 k)).toInt
      = ((min (Read.val_main_v21 (F := Ideal) x1 (ix2 (i 0) 0)).toInt.toNat (2 - 1) : ℕ) : ℤ) ↔ x1 (ix1 k) = x1 i
  rw [hidx, clamp_eq _ (hT i)]
  exact BitVec.toInt_inj

/-- The reference's result is the result function of the specification when every label is 0 or 1. -/
theorem ref_eq (x0 : (⟨S2000000x64, .f32⟩ : BufTy).Contents (Elt Ideal)) (x1 : (⟨S2000000, .i32⟩ : BufTy).Contents (Elt Ideal))
    (x2 : (⟨S128x64, .f32⟩ : BufTy).Contents (Elt Ideal)) (x3 : (⟨S128, .f32⟩ : BufTy).Contents (Elt Ideal))
    (x4 : (⟨S1x128, .f32⟩ : BufTy).Contents (Elt Ideal)) (x5 : (⟨S1, .f32⟩ : BufTy).Contents (Elt Ideal))
    (hT : ∀ i, x1 i = 0#32 ∨ x1 i = 1#32) :
    Cert.ReferenceIdeal.Read.val_main_v23 (F := Ideal) x0 x1 x2 x3 x4 x5 = Cert.SegNorm.out x0 x1 x2 x3 x4 x5 := by
  funext i
  rw [Read.val_main_v23_apply, num_eq, v22_eq x0 x1 x2 x3 x4 x5 hT i]
  rfl

end Cert.ReferenceIdeal.RefValue

end
-- ==== Proof.PreDecode.lean ====
/-
  What the precondition says of the inputs: every label is 0 or 1, and the second layer's weights and bias are
  real numbers.
-/
import proofs.«411640_j35201551958668_3_alg».proof.Proof.Gen.Pre_finite_inputs
import Idealize.ShloMosaic.Lib.ReduceAll
import Idealize.ShloMosaic.Lib.StableHlo.Predicate
import Idealize.ShloMosaic.PureOps.Ideal.Laws
import Idealize.ShloMosaic.Lib.ValueIdx

noncomputable section

namespace Cert.Pre_finite_inputs.Decode

open Idealize.ShloMosaic Idealize.ShloMosaic.ValueIdx Cert.Pre_finite_inputs

/-- The pattern the precondition compares against is +∞. -/
theorem top_bits : (Ideal.ofBits .f32 0x7F800000#32 : EReal) = ⊤ := by
  simp [Ideal.ofBits, Ideal.ieee]

/-- An extended real whose absolute value is strictly below +∞ is a real number. -/
theorem real_of_abs_lt (a : EReal) (h : Ideal.cmp .olt (max a (-a)) (⊤ : EReal) = 1#1) :
    ∃ r : ℝ, a = (r : EReal) := by
  induction a using EReal.rec with
  | bot => simp [Ideal.cmp] at h
  | coe r => exact ⟨r, rfl⟩
  | top => simp [Ideal.cmp] at h

/-- A 32-bit word that is signed-at-least 0 and signed-below 2 is 0 or 1. -/
theorem label_decode (t : BitVec 32) (h1 : IntOp.cmpi .sge t 0#32 = 1#1) (h2 : IntOp.cmpi .slt t 2#32 = 1#1) :
    t = 0#32 ∨ t = 1#32 := by
  simp only [IntOp.cmpi] at h1 h2
  have a1 : (0#32).sle t = true := by
    cases hb : (0#32).sle t with
    | true => rfl
    | false => rw [hb] at h1; exact absurd h1 (by decide)
  have a2 : t.slt 2#32 = true := by
    cases hb : t.slt 2#32 with
    | true => rfl
    | false => rw [hb] at h2; exact absurd h2 (by decide)
  rw [BitVec.sle_iff_toInt_le] at a1
  rw [BitVec.slt_iff_toInt_lt] at a2
  have z0 : (0#32 : BitVec 32).toInt = 0 := by decide
  have z2 : (2#32 : BitVec 32).toInt = 2 := by decide
  rw [z0] at a1
  rw [z2] at a2
  have : t.toInt = 0 ∨ t.toInt = 1 := by omega
  rcases this with e | e
  · left; apply BitVec.eq_of_toInt_eq; rw [e, z0]
  · right; apply BitVec.eq_of_toInt_eq; rw [e]; decide

/-- The rank-0 shape has a single index. -/
local instance : Subsingleton S_.Idx := ⟨fun a b => funext fun d => d.elim0⟩

/-- One element of an "all |x| < +∞" test that came out true: that element is a real number. -/
theorem float_elem {t : Shape} (hb : S_.BroadcastsInDim t (![] : Fin 0 → Fin t.rank)) (x : FVec Ideal t .f32) (i : t.Idx)
    (h : cmpf .olt (Host.absf x) (broadcastInDim t ![] hb (constant S_ .f32 0x7F800000#32)) i = 1#1) :
    ∃ r : ℝ, x i = (r : EReal) := by
  apply real_of_abs_lt
  rw [← top_bits]
  exact h

/-- One element of the label test that came out true: that label is 0 or 1. -/
theorem label_elem {t : Shape} (hb : S_.BroadcastsInDim t (![] : Fin 0 → Fin t.rank)) (x : IVec t 32) (i : t.Idx)
    (h : andi (cmpi .sge x (broadcastInDim t ![] hb (constantI S_ 32 0#32)))
      (cmpi .slt x (broadcastInDim t ![] hb (constantI S_ 32 2#32))) i = 1#1) :
    x i = 0#32 ∨ x i = 1#32 := by
  obtain ⟨h1, h2⟩ := IntOp.andi_eq_one.1 h
  exact label_decode (x i) h1 h2

/-- The precondition, split into what it says of each argument. -/
theorem split6 (x0 : FVec Ideal S2000000x64 .f32) (x1 : IVec S2000000 32) (x2 : FVec Ideal S128x64 .f32)
    (x3 : FVec Ideal S128 .f32) (x4 : FVec Ideal S1x128 .f32) (x5 : FVec Ideal S1 .f32)
    (h : Cert.Pre_finite_inputs.fn (F := Ideal) x0 x1 x2 x3 x4 x5 = (fun _ => 1#1)) :
    (∀ i, ∃ r : ℝ, x0 i = (r : EReal)) ∧ (∀ i, ∃ r : ℝ, x2 i = (r : EReal)) ∧ (∀ i, ∃ r : ℝ, x3 i = (r : EReal)) ∧
      (∀ i, ∃ r : ℝ, x4 i = (r : EReal)) ∧ (∀ i, ∃ r : ℝ, x5 i = (r : EReal)) ∧ (∀ i, x1 i = 0#32 ∨ x1 i = 1#32) := by
  have h0 := congrFun h ValueIdx.ix0
  dsimp only [fn, fn_part1] at h0
  obtain ⟨h0, hT⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨fun i => float_elem _ x0 i (Host.reduce_andi_all _ _ _ _ _ h0 i),
    fun i => float_elem _ x2 i (Host.reduce_andi_all _ _ _ _ _ h2 i),
    fun i => float_elem _ x3 i (Host.reduce_andi_all _ _ _ _ _ h3 i),
    fun i => float_elem _ x4 i (Host.reduce_andi_all _ _ _ _ _ h4 i),
    fun i => float_elem _ x5 i (Host.reduce_andi_all _ _ _ _ _ h5 i),
    fun i => label_elem _ x1 i (Host.reduce_andi_all _ _ _ _ _ hT i)⟩

theorem labels (x0 : FVec Ideal S2000000x64 .f32) (x1 : IVec S2000000 32) (x2 : FVec Ideal S128x64 .f32)
    (x3 : FVec Ideal S128 .f32) (x4 : FVec Ideal S1x128 .f32) (x5 : FVec Ideal S1 .f32)
    (h : Cert.Pre_finite_inputs.fn (F := Ideal) x0 x1 x2 x3 x4 x5 = (fun _ => 1#1)) :
    ∀ i, x1 i = 0#32 ∨ x1 i = 1#32 :=
  (split6 x0 x1 x2 x3 x4 x5 h).2.2.2.2.2

theorem w2_real (x0 : FVec Ideal S2000000x64 .f32) (x1 : IVec S2000000 32) (x2 : FVec Ideal S128x64 .f32)
    (x3 : FVec Ideal S128 .f32) (x4 : FVec Ideal S1x128 .f32) (x5 : FVec Ideal S1 .f32)
    (h : Cert.Pre_finite_inputs.fn (F := Ideal) x0 x1 x2 x3 x4 x5 = (fun _ => 1#1)) :
    ∀ i, ∃ r : ℝ, x4 i = (r : EReal) :=
  (split6 x0 x1 x2 x3 x4 x5 h).2.2.2.1

theorem b2_real (x0 : FVec Ideal S2000000x64 .f32) (x1 : IVec S2000000 32) (x2 : FVec Ideal S128x64 .f32)
    (x3 : FVec Ideal S128 .f32) (x4 : FVec Ideal S1x128 .f32) (x5 : FVec Ideal S1 .f32)
    (h : Cert.Pre_finite_inputs.fn (F := Ideal) x0 x1 x2 x3 x4 x5 = (fun _ => 1#1)) :
    ∀ i, ∃ r : ℝ, x5 i = (r : EReal) :=
  (split6 x0 x1 x2 x3 x4 x5 h).2.2.2.2.1

end Cert.Pre_finite_inputs.Decode

end
-- ==== Proof.lean ====
/-
  A two-layer scoring network followed by a per-label normalisation, over 2,000,000 rows with labels in {0, 1}:
  row n's score is e(n) = exp( Σ_h tanh( Σ_d x[n,d]·W1[h,d] + b1[h] ) · W2[0,h] + b2[0] ), and the result at n is
  e(n) divided by the sum of e over the rows that carry n's label.

  The reference forms the two label sums by a scatter-add of the scores into two cells and reads each row's sum
  back by its label. The kernel streams the rows once, as 125 blocks of 5 chunks of 3,200 rows: per chunk it
  stores the scores and adds, onto a carried pair, the sum of the scores labelled 0 and "all scores less those
  labelled 0"; the host then adds the 125 per-block pairs and picks, per row, the first total where the label is
  0 and the second elsewhere. Over the extended reals the two agree when every label is 0 or 1 (a row with
  another label would be counted by the kernel's second total and dropped by the scatter) and the scores are
  real numbers (the kernel subtracts), which they are as soon as W2 and b2 are finite, tanh being real everywhere.
  Both facts are read off the precondition.
-/
import proofs.«411640_j35201551958668_3_alg».proof.Defs
import proofs.«411640_j35201551958668_3_alg».proof.Proof.Gen.Kernel
import proofs.«411640_j35201551958668_3_alg».proof.Proof.Gen.Kernel.Skeleton
import proofs.«411640_j35201551958668_3_alg».proof.Proof.Gen.Kernel.Loops
import proofs.«411640_j35201551958668_3_alg».proof.Proof.Gen.Kernel.Launch
import proofs.«411640_j35201551958668_3_alg».proof.Proof.Gen.Kernel.Points
import proofs.«411640_j35201551958668_3_alg».proof.Proof.Gen.Kernel.Frame
import proofs.«411640_j35201551958668_3_alg».proof.Proof.Gen.KernelIdeal
import proofs.«411640_j35201551958668_3_alg».proof.Proof.Gen.KernelIdeal.Skeleton
import proofs.«411640_j35201551958668_3_alg».proof.Proof.Gen.KernelIdeal.Loops
import proofs.«411640_j35201551958668_3_alg».proof.Proof.Gen.KernelIdeal.Launch
import proofs.«411640_j35201551958668_3_alg».proof.Proof.Gen.KernelIdeal.Points
import proofs.«411640_j35201551958668_3_alg».proof.Proof.Gen.KernelIdeal.Frame
import proofs.«411640_j35201551958668_3_alg».proof.Proof.Gen.ReferenceIdeal
import proofs.«411640_j35201551958668_3_alg».proof.Proof.Gen.Pre_finite_inputs
import proofs.«411640_j35201551958668_3_alg».proof.Proof.Gen.ReferenceIdeal.Run
import proofs.«411640_j35201551958668_3_alg».proof.Proof.Gen.ReferenceIdeal.Read
import proofs.«411640_j35201551958668_3_alg».proof.Proof.KernelValue
import proofs.«411640_j35201551958668_3_alg».proof.Proof.RefValue
import proofs.«411640_j35201551958668_3_alg».proof.Proof.PreDecode
import Idealize.ShloMosaic.Adequacy
import Idealize.ShloMosaic.Init

noncomputable section

namespace Cert.Proof

open Idealize.ShloMosaic Idealize.SL.Sem

/-- The three programs run and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the extended reals: nothing was rewritten. -/
theorem preserves : Cert.preserves_Kernel_KernelIdeal := trivial

/-- Both idealized programs end with each row's score over the sum of the scores of the rows with its label. -/
theorem algebraic : Cert.algebraic_KernelIdeal_ReferenceIdeal := by
  intro m ρ m' ρ' hpre hagree
  have hT := fun c => Cert.Pre_finite_inputs.Decode.labels _ _ _ _ _ _ (hpre c)
  have hW2 := fun c => Cert.Pre_finite_inputs.Decode.w2_real _ _ _ _ _ _ (hpre c)
  have hb2 := fun c => Cert.Pre_finite_inputs.Decode.b2_real _ _ _ _ _ _ (hpre c)
  refine ⟨fun c => Cert.SegNorm.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.result_eq m c (hT c) (hW2 c) (hb2 c)), (h c).2⟩)
      (Cert.KernelIdeal.Hand.run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v23_eq,
      Cert.ReferenceIdeal.RefValue.ref_eq _ _ _ _ _ _ (by rw [(hagree c).2.1]; exact hT c),
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
